-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x10000 : Shape := ⟨2, ![32, 10000]⟩
abbrev S256x10000 : Shape := ⟨2, ![256, 10000]⟩
abbrev S256 : Shape := ⟨1, ![256]⟩
abbrev S256x256 : Shape := ⟨2, ![256, 256]⟩
abbrev S_ : Shape := ⟨0, ![]⟩

class Facts : Prop where
  bcast_S_S32x10000 : S_.BroadcastsInDim S32x10000 (![] : Fin 0 → Fin S32x10000.rank)
  reducesTo_S32x10000_S_d0_1 : S32x10000.ReducesTo [0, 1] S_
  h_S_ : 0 < S_.numel
  bcast_S_S256x10000 : S_.BroadcastsInDim S256x10000 (![] : Fin 0 → Fin S256x10000.rank)
  reducesTo_S256x10000_S_d0_1 : S256x10000.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_arg8 : FVec F S256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x10000 .f32) (main_arg1 : FVec F S256x10000 .f32) (main_arg2 : FVec F S256x10000 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) : IVec S_ 1 :=
  let main_v0 : FVec F S32x10000 .f32 := Host.absf main_arg0
  let main_cst : FVec F S_ .f32 := constant S_ .f32 0x7F800000#32
  let main_v1 : FVec F S32x10000 .f32 := broadcastInDim S32x10000 ![] bcast_S_S32x10000 main_cst
  let main_v2 : IVec S32x10000 1 := cmpf .olt main_v0 main_v1
  let main_c : IVec S_ 1 := constantI S_ 1 1#1
  let main_v3 : IVec S_ 1 := (fun x v => Host.reduce IntOp.andi x v reducesTo_S32x10000_S_d0_1 h_S_) main_v2 main_c
  let main_v4 : FVec F S256x10000 .f32 := Host.absf main_arg1
  let main_cst_0 : FVec F S_ .f32 := constant S_ .f32 0x7F800000#32
  let main_v5 : FVec F S256x10000 .f32 := broadcastInDim S256x10000 ![] bcast_S_S256x10000 main_cst_0
  let main_v6 : IVec S256x10000 1 := cmpf .olt main_v4 main_v5
  let main_c_1 : IVec S_ 1 := constantI S_ 1 1#1
  let main_v7 : IVec S_ 1 := (fun x v => Host.reduce IntOp.andi x v reducesTo_S256x10000_S_d0_1 h_S_) main_v6 main_c_1
  let main_v8 : IVec S_ 1 := andi main_v3 main_v7
  let main_v9 : FVec F S256x10000 .f32 := Host.absf main_arg2
  let main_cst_2 : FVec F S_ .f32 := constant S_ .f32 0x7F800000#32
  let main_v10 : FVec F S256x10000 .f32 := broadcastInDim S256x10000 ![] bcast_S_S256x10000 main_cst_2
  let main_v11 : IVec S256x10000 1 := cmpf .olt main_v9 main_v10
  let main_c_3 : IVec S_ 1 := constantI S_ 1 1#1
  let main_v12 : IVec S_ 1 := (fun x v => Host.reduce IntOp.andi x v reducesTo_S256x10000_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S32x10000 : Shape := ⟨2, ![32, 10000]⟩
abbrev S256x10000 : Shape := ⟨2, ![256, 10000]⟩
abbrev S256 : Shape := ⟨1, ![256]⟩
abbrev S256x256 : Shape := ⟨2, ![256, 256]⟩
abbrev S256x1 : Shape := ⟨2, ![256, 1]⟩
abbrev S32x256x256 : Shape := ⟨3, ![32, 256, 256]⟩
abbrev S16x10000 : Shape := ⟨2, ![16, 10000]⟩
abbrev S16x1 : Shape := ⟨2, ![16, 1]⟩
abbrev S32x16x256 : Shape := ⟨3, ![32, 16, 256]⟩
abbrev S32x1x10000 : Shape := ⟨3, ![32, 1, 10000]⟩
abbrev S1x16x10000 : Shape := ⟨3, ![1, 16, 10000]⟩
abbrev S32x16x10000 : Shape := ⟨3, ![32, 16, 10000]⟩
abbrev S512x10000 : Shape := ⟨2, ![512, 10000]⟩
abbrev S512x256 : Shape := ⟨2, ![512, 256]⟩
abbrev S1x256 : Shape := ⟨2, ![1, 256]⟩
abbrev S16x256 : Shape := ⟨2, ![16, 256]⟩
abbrev S16 : Shape := ⟨1, ![16]⟩
abbrev S1x16x1 : Shape := ⟨3, ![1, 16, 1]⟩

abbrev nBuf : Space → Nat
  | .hbm => 19
  | .vmem => 17
  | .smem => 0
  | _ => 0

abbrev bufTy : (tb : Table) → Fin (tcTables nBuf tb) → BufTy
  | .hbm, ⟨0, _⟩ => ⟨S32x10000, .f32⟩
  | .hbm, ⟨1, _⟩ => ⟨S256x10000, .f32⟩
  | .hbm, ⟨2, _⟩ => ⟨S256x10000, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S32x10000, .bf16⟩
  | .hbm, ⟨11, _⟩ => ⟨S256x10000, .bf16⟩
  | .hbm, ⟨12, _⟩ => ⟨S256x10000, .bf16⟩
  | .hbm, ⟨13, _⟩ => ⟨S256x256, .bf16⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S32x256x256, .f32⟩
  | .local _ .vmem, ⟨0, _⟩ => ⟨S32x10000, .bf16⟩
  | .local _ .vmem, ⟨1, _⟩ => ⟨S16x10000, .bf16⟩
  | .local _ .vmem, ⟨2, _⟩ => ⟨S16x10000, .bf16⟩
  | .local _ .vmem, ⟨3, _⟩ => ⟨S256x10000, .bf16⟩
  | .local _ .vmem, ⟨4, _⟩ => ⟨S256, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | .local _ .vmem, ⟨9, _⟩ => ⟨S256x256, .bf16⟩
  | .local _ .vmem, ⟨10, _⟩ => ⟨S256, .f32⟩
  | .local _ .vmem, ⟨11, _⟩ => ⟨S16x1, .f32⟩
  | .local _ .vmem, ⟨12, _⟩ => ⟨S16x1, .f32⟩
  | .local _ .vmem, ⟨13, _⟩ => ⟨S16x1, .f32⟩
  | .local _ .vmem, ⟨14, _⟩ => ⟨S16x1, .f32⟩
  | .local _ .vmem, ⟨15, _⟩ => ⟨S32x16x256, .f32⟩
  | .local _ .vmem, ⟨16, _⟩ => ⟨S32x16x256, .f32⟩
  | _, _ => ⟨S32x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x10000 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x10000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x10000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S256_S256x1 : S256.ShapeCasts S256x1
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  inb_S16x10000_S16x10000_0_0 : ∀ a, (![0, 0] : Fin 2 → Nat) a + S16x10000.size a ≤ S16x10000.size a
  h_S16x10000 : 0 < S16x10000.numel
  shapeCasts_S16x10000_S16x10000 : S16x10000.ShapeCasts S16x10000
  shapeCasts_S32x10000_S32x1x10000 : S32x10000.ShapeCasts S32x1x10000
  shapeCasts_S16x10000_S1x16x10000 : S16x10000.ShapeCasts S1x16x10000
  broadcasts_S32x1x10000_S32x16x10000 : S32x1x10000.Broadcasts S32x16x10000
  broadcasts_S1x16x10000_S32x16x10000 : S1x16x10000.Broadcasts S32x16x10000
  shapeCasts_S32x16x10000_S512x10000 : S32x16x10000.ShapeCasts S512x10000
  inb_S256x10000_S256x10000_0_0 : ∀ a, (![0, 0] : Fin 2 → Nat) a + S256x10000.size a ≤ S256x10000.size a
  h_S256x10000 : 0 < S256x10000.numel
  shapeCasts_S256x10000_S256x10000 : S256x10000.ShapeCasts S256x10000
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  shapeCasts_S512x256_S32x16x256 : S512x256.ShapeCasts S32x16x256
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reduces_S32x16x256_S16x256 : S32x16x256.Reduces [0] S16x256
  reduces_S16x256_S16 : S16x256.Reduces [1] S16
  shapeCasts_S16_S16x1 : S16.ShapeCasts S16x1
  shapeCasts_S16x1_S1x16x1 : S16x1.ShapeCasts S1x16x1
  broadcasts_S1x16x1_S32x16x256 : S1x16x1.Broadcasts S32x16x256
  shapeCasts_S32x16x256_S512x256 : S32x16x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S32x16x256_S32x16x256_0_0_0 : ∀ a, (![0, 0, 0] : Fin 3 → Nat) a + S32x16x256.size a ≤ S32x16x256.size a
  h_S32x16x256 : 0 < S32x16x256.numel
  dot_S512x10000_S256x10000_S512x256_1_1_0_0_n_n_wf : DotDims.WF S512x10000 S256x10000 S512x256 [1] [1] [0] [0] [] []
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x10000.size a ≤ S32x10000.size a
  hwx0_0 : ∀ i : grid0.Coords, EltTy.bits .bf16 = 32 ∨ (Rect.block (s := S32x10000) S32x10000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x10000.size a ≤ S256x10000.size a
  hwx0_1 : ∀ i : grid0.Coords, EltTy.bits .bf16 = 32 ∨ (Rect.block (s := S256x10000) S16x10000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x10000.size a ≤ S256x10000.size a
  hwx0_2 : ∀ i : grid0.Coords, EltTy.bits .bf16 = 32 ∨ (Rect.block (s := S256x10000) S256x10000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S256x1.size a
  hwx0_4 : ∀ i : grid0.Coords, EltTy.bits .f32 = 32 ∨ (Rect.block (s := S256x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S256x1.size a
  hwx0_5 : ∀ i : grid0.Coords, EltTy.bits .f32 = 32 ∨ (Rect.block (s := S256x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S256x1.size a
  hwx0_8 : ∀ i : grid0.Coords, EltTy.bits .f32 = 32 ∨ (Rect.block (s := S256x1) S16x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x1.size a ≤ S256x1.size a
  hwx0_9 : ∀ i : grid0.Coords, EltTy.bits .f32 = 32 ∨ (Rect.block (s := S256x1) S16x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x16x256.size a ≤ S32x256x256.size a
  hwx0_10 : ∀ i : grid0.Coords, EltTy.bits .f32 = 32 ∨ (Rect.block (s := S32x256x256) S32x16x256.size (cc0_transform_10 i) (hinb0_10 i)).WholeWords (EltTy.packing .f32)

variable [Facts₀]

def dot_S512x10000_S256x10000_S512x256_1_1_0_0_n_n : DotDims S512x10000 S256x10000 S512x256 where
  lhsContracting := [1]
  rhsContracting := [1]
  lhsNonContracting := [0]
  rhsNonContracting := [0]
  lhsBatch := []
  rhsBatch := []
  wf := dot_S512x10000_S256x10000_S512x256_1_1_0_0_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_v0) S32x10000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S16x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7) S16x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8) S32x16x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x10000 : Shape := ⟨2, ![32, 10000]⟩
abbrev S256x10000 : Shape := ⟨2, ![256, 10000]⟩
abbrev S256 : Shape := ⟨1, ![256]⟩
abbrev S256x256 : Shape := ⟨2, ![256, 256]⟩
abbrev S32x1x10000 : Shape := ⟨3, ![32, 1, 10000]⟩
abbrev S1x256x10000 : Shape := ⟨3, ![1, 256, 10000]⟩
abbrev S32x256x10000 : Shape := ⟨3, ![32, 256, 10000]⟩
abbrev S32x256x256 : Shape := ⟨3, ![32, 256, 256]⟩
abbrev S1x1x256 : Shape := ⟨3, ![1, 1, 256]⟩
abbrev S_ : Shape := ⟨0, ![]⟩
abbrev S1x256x1 : Shape := ⟨3, ![1, 256, 1]⟩

abbrev nBuf : Space → Nat
  | .hbm => 117
  | .vmem => 0
  | .smem => 0
  | _ => 0

abbrev bufTy : (tb : Table) → Fin (tcTables nBuf tb) → BufTy
  | .hbm, ⟨0, _⟩ => ⟨S32x10000, .f32⟩
  | .hbm, ⟨1, _⟩ => ⟨S256x10000, .f32⟩
  | .hbm, ⟨2, _⟩ => ⟨S256x10000, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S32x1x10000, .f32⟩
  | .hbm, ⟨11, _⟩ => ⟨S1x256x10000, .f32⟩
  | .hbm, ⟨12, _⟩ => ⟨S32x256x10000, .f32⟩
  | .hbm, ⟨13, _⟩ => ⟨S32x256x10000, .f32⟩
  | .hbm, ⟨14, _⟩ => ⟨S32x256x10000, .f32⟩
  | .hbm, ⟨15, _⟩ => ⟨S32x256x256, .f32⟩
  | .hbm, ⟨16, _⟩ => ⟨S1x1x256, .f32⟩
  | .hbm, ⟨17, _⟩ => ⟨S32x256x256, .f32⟩
  | .hbm, ⟨18, _⟩ => ⟨S32x256x256, .f32⟩
  | .hbm, ⟨19, _⟩ => ⟨S_, .f32⟩
  | .hbm, ⟨20, _⟩ => ⟨S256, .f32⟩
  | .hbm, ⟨21, _⟩ => ⟨S1x256x1, .f32⟩
  | .hbm, ⟨22, _⟩ => ⟨S_, .f32⟩
  | .hbm, ⟨23, _⟩ => ⟨S1x256x1, .f32⟩
  | .hbm, ⟨24, _⟩ => ⟨S1x256x1, .f32⟩
  | .hbm, ⟨25, _⟩ => ⟨S_, .i32⟩
  | .hbm, ⟨26, _⟩ => ⟨S_, .f32⟩
  | .hbm, ⟨27, _⟩ => ⟨S256, .f32⟩
  | .hbm, ⟨28, _⟩ => ⟨S1x256x1, .f32⟩
  | .hbm, ⟨29, _⟩ => ⟨S_, .f32⟩
  | .hbm, ⟨30, _⟩ => ⟨S1x256x1, .f32⟩
  | .hbm, ⟨31, _⟩ => ⟨S1x256x1, .f32⟩
  | .hbm, ⟨32, _⟩ => ⟨S32x256x256, .f32⟩
  | .hbm, ⟨33, _⟩ => ⟨S32x256x256, .f32⟩
  | .hbm, ⟨34, _⟩ => ⟨S32x256x256, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S256, .f32⟩
  | .hbm, ⟨40, _⟩ => ⟨S1x256x1, .f32⟩
  | .hbm, ⟨41, _⟩ => ⟨S1x256x1, .f32⟩
  | .hbm, ⟨42, _⟩ => ⟨S1x256x1, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S1x256x1, .f32⟩
  | .hbm, ⟨48, _⟩ => ⟨S1x256x1, .f32⟩
  | .hbm, ⟨49, _⟩ => ⟨S1x256x1, .f32⟩
  | .hbm, ⟨50, _⟩ => ⟨S32x256x256, .f32⟩
  | .hbm, ⟨51, _⟩ => ⟨S32x256x256, .f32⟩
  | .hbm, ⟨52, _⟩ => ⟨S32x256x256, .f32⟩
  | .hbm, ⟨53, _⟩ => ⟨S32x256x256, .f32⟩
  | .hbm, ⟨54, _⟩ => ⟨S_, .f32⟩
  | .hbm, ⟨55, _⟩ => ⟨S1x256x1, .f32⟩
  | .hbm, ⟨56, _⟩ => ⟨S1x256x1, .f32⟩
  | .hbm, ⟨57, _⟩ => ⟨S1x256x1, .f32⟩
  | .hbm, ⟨58, _⟩ => ⟨S32x256x256, .f32⟩
  | .hbm, ⟨59, _⟩ => ⟨S32x256x256, .f32⟩
  | .hbm, ⟨60, _⟩ => ⟨S1x256x1, .f32⟩
  | .hbm, ⟨61, _⟩ => ⟨S32x256x256, .f32⟩
  | .hbm, ⟨62, _⟩ => ⟨S32x256x256, .f32⟩
  | .hbm, ⟨63, _⟩ => ⟨S_, .f32⟩
  | .hbm, ⟨64, _⟩ => ⟨S32x256x256, .f32⟩
  | .hbm, ⟨65, _⟩ => ⟨S32x256x256, .f32⟩
  | .hbm, ⟨66, _⟩ => ⟨S32x256x256, .f32⟩
  | .hbm, ⟨67, _⟩ => ⟨S1x1x256, .f32⟩
  | .hbm, ⟨68, _⟩ => ⟨S32x256x256, .f32⟩
  | .hbm, ⟨69, _⟩ => ⟨S32x256x256, .f32⟩
  | .hbm, ⟨70, _⟩ => ⟨S_, .f32⟩
  | .hbm, ⟨71, _⟩ => ⟨S256, .f32⟩
  | .hbm, ⟨72, _⟩ => ⟨S1x256x1, .f32⟩
  | .hbm, ⟨73, _⟩ => ⟨S_, .f32⟩
  | .hbm, ⟨74, _⟩ => ⟨S1x256x1, .f32⟩
  | .hbm, ⟨75, _⟩ => ⟨S1x256x1, .f32⟩
  | .hbm, ⟨76, _⟩ => ⟨S_, .i32⟩
  | .hbm, ⟨77, _⟩ => ⟨S_, .f32⟩
  | .hbm, ⟨78, _⟩ => ⟨S256, .f32⟩
  | .hbm, ⟨79, _⟩ => ⟨S1x256x1, .f32⟩
  | .hbm, ⟨80, _⟩ => ⟨S_, .f32⟩
  | .hbm, ⟨81, _⟩ => ⟨S1x256x1, .f32⟩
  | .hbm, ⟨82, _⟩ => ⟨S1x256x1, .f32⟩
  | .hbm, ⟨83, _⟩ => ⟨S32x256x256, .f32⟩
  | .hbm, ⟨84, _⟩ => ⟨S32x256x256, .f32⟩
  | .hbm, ⟨85, _⟩ => ⟨S32x256x256, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S256, .f32⟩
  | .hbm, ⟨91, _⟩ => ⟨S1x256x1, .f32⟩
  | .hbm, ⟨92, _⟩ => ⟨S1x256x1, .f32⟩
  | .hbm, ⟨93, _⟩ => ⟨S1x256x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S1x256x1, .f32⟩
  | .hbm, ⟨99, _⟩ => ⟨S1x256x1, .f32⟩
  | .hbm, ⟨100, _⟩ => ⟨S1x256x1, .f32⟩
  | .hbm, ⟨101, _⟩ => ⟨S32x256x256, .f32⟩
  | .hbm, ⟨102, _⟩ => ⟨S32x256x256, .f32⟩
  | .hbm, ⟨103, _⟩ => ⟨S32x256x256, .f32⟩
  | .hbm, ⟨104, _⟩ => ⟨S32x256x256, .f32⟩
  | .hbm, ⟨105, _⟩ => ⟨S_, .f32⟩
  | .hbm, ⟨106, _⟩ => ⟨S1x256x1, .f32⟩
  | .hbm, ⟨107, _⟩ => ⟨S1x256x1, .f32⟩
  | .hbm, ⟨108, _⟩ => ⟨S1x256x1, .f32⟩
  | .hbm, ⟨109, _⟩ => ⟨S32x256x256, .f32⟩
  | .hbm, ⟨110, _⟩ => ⟨S32x256x256, .f32⟩
  | .hbm, ⟨111, _⟩ => ⟨S1x256x1, .f32⟩
  | .hbm, ⟨112, _⟩ => ⟨S32x256x256, .f32⟩
  | .hbm, ⟨113, _⟩ => ⟨S32x256x256, .f32⟩
  | .hbm, ⟨114, _⟩ => ⟨S_, .f32⟩
  | .hbm, ⟨115, _⟩ => ⟨S32x256x256, .f32⟩
  | .hbm, ⟨116, _⟩ => ⟨S32x256x256, .f32⟩
  | _, _ => ⟨S32x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call1_cst : Ref sig .tc := ⟨.hbm, 63, rfl⟩
abbrev main_call1_v0 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_2 : Ref sig .tc := ⟨.hbm, 70, rfl⟩
abbrev main_v32 : Ref sig .tc := ⟨.hbm, 71, rfl⟩
abbrev main_v33 : Ref sig .tc := ⟨.hbm, 72, rfl⟩
abbrev main_cst_3 : Ref sig .tc := ⟨.hbm, 73, rfl⟩
abbrev main_v34 : Ref sig .tc := ⟨.hbm, 74, rfl⟩
abbrev main_v35 : Ref sig .tc := ⟨.hbm, 75, rfl⟩
abbrev main_c_4 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_cst_3 : Ref sig .tc := ⟨.hbm, 94, rfl⟩
abbrev main_call2_v13 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_cst_5 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_call3_cst : Ref sig .tc := ⟨.hbm, 114, rfl⟩
abbrev main_call3_v0 : Ref sig .tc := ⟨.hbm, 115, rfl⟩
abbrev main_v50 : Ref sig .tc := ⟨.hbm, 116, rfl⟩

abbrev nD : Nat := 1
abbrev τ : Topo := Topo.v7x

variable {F : FTy → Type} [FloatOps F]

class Facts₀ : Prop where
  bcast_S32x10000_S32x1x10000_0_2 : S32x10000.BroadcastsInDim S32x1x10000 (![0, 2] : Fin 2 → Fin S32x1x10000.rank)
  bcast_S256x10000_S1x256x10000_1_2 : S256x10000.BroadcastsInDim S1x256x10000 (![1, 2] : Fin 2 → Fin S1x256x10000.rank)
  bcast_S32x1x10000_S32x256x10000_0_1_2 : S32x1x10000.BroadcastsInDim S32x256x10000 (![0, 1, 2] : Fin 3 → Fin S32x256x10000.rank)
  bcast_S1x256x10000_S32x256x10000_0_1_2 : S1x256x10000.BroadcastsInDim S32x256x10000 (![0, 1, 2] : Fin 3 → Fin S32x256x10000.rank)
  bcast_S256_S1x1x256_2 : S256.BroadcastsInDim S1x1x256 (![2] : Fin 1 → Fin S1x1x256.rank)
  bcast_S1x1x256_S32x256x256_0_1_2 : S1x1x256.BroadcastsInDim S32x256x256 (![0, 1, 2] : Fin 3 → Fin S32x256x256.rank)
  reducesTo_S32x256x256_S256_d0_2 : S32x256x256.ReducesTo [0, 2] S256
  h_S_ : 0 < S_.numel
  bcast_S256_S1x256x1_1 : S256.BroadcastsInDim S1x256x1 (![1] : Fin 1 → Fin S1x256x1.rank)
  bcast_S_S1x256x1 : S_.BroadcastsInDim S1x256x1 (![] : Fin 0 → Fin S1x256x1.rank)
  bcast_S1x256x1_S32x256x256_0_1_2 : S1x256x1.BroadcastsInDim S32x256x256 (![0, 1, 2] : Fin 3 → Fin S32x256x256.rank)
  bcast_S_S32x256x256 : S_.BroadcastsInDim S32x256x256 (![] : Fin 0 → Fin S32x256x256.rank)
  dot_S32x256x10000_S256x10000_S32x256x256_2_1_01_0_n_n_wf : DotDims.WF S32x256x10000 S256x10000 S32x256x256 [2] [1] [0, 1] [0] [] []
  dot_S32x256x256_S256x256_S32x256x256_2_1_01_0_n_n_wf : DotDims.WF S32x256x256 S256x256 S32x256x256 [2] [1] [0, 1] [0] [] []

variable [Facts₀]

def dot_S32x256x10000_S256x10000_S32x256x256_2_1_01_0_n_n : DotDims S32x256x10000 S256x10000 S32x256x256 where
  lhsContracting := [2]
  rhsContracting := [1]
  lhsNonContracting := [0, 1]
  rhsNonContracting := [0]
  lhsBatch := []
  rhsBatch := []
  wf := dot_S32x256x10000_S256x10000_S32x256x256_2_1_01_0_n_n_wf
def dot_S32x256x256_S256x256_S32x256x256_2_1_01_0_n_n : DotDims S32x256x256 S256x256 S32x256x256 where
  lhsContracting := [2]
  rhsContracting := [1]
  lhsNonContracting := [0, 1]
  rhsNonContracting := [0]
  lhsBatch := []
  rhsBatch := []
  wf := dot_S32x256x256_S256x256_S32x256x256_2_1_01_0_n_n_wf

class Facts : Prop extends Facts₀ where

variable [Facts]
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«164206_j25898652795510_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.Lits.lean ====
/- The three float words the normalisation uses, as extended reals. The count `8192.0` (sign 0, exponent 140, fraction 0)
   denotes the real `8192 = 2^13`; the word `0x39000000` (exponent 114, fraction 0) denotes `2^(-13) = 1/8192` exactly; the
   third is the f32 nearest `1e-5`. Since `1/8192` is exact, multiplying by it IS dividing by `8192`, at every extended real. -/
import Idealize.ShloMosaic.PureOps.Ideal
import proofs.«164206_j25898652795510_1_alg».proof.Proof.LibFinite
import proofs.«164206_j25898652795510_1_alg».proof.Proof.LibConsts

namespace Cert.Lits

open Idealize.ShloMosaic Cert.LibFinite

/-- The count of a group's slab, `8192.0`. -/
noncomputable abbrev D : EReal := Ideal.ofBits .f32 0x46000000#32
/-- Its reciprocal as the kernel spells it, `1.22070313e-4`. -/
noncomputable abbrev s : EReal := Ideal.ofBits .f32 0x39000000#32
/-- The epsilon, the f32 nearest `1e-5`. -/
noncomputable abbrev eps : EReal := Ideal.ofBits .f32 0x3727C5AC#32

theorem D_eq : D = ((8192 : ℝ) : EReal) := by
  simp [D, Ideal.ofBits, Ideal.ieee, -EReal.coe_mul]; norm_num

theorem s_eq : s = ((1 / 8192 : ℝ) : EReal) := by
  simp [s, Ideal.ofBits, Ideal.ieee, -EReal.coe_mul]; norm_num

/-- The count as the cast of the natural number `32 · 256`. -/
theorem D_eq_card : D = ((((32 * 256 : Nat) : ℝ)) : EReal) := by
  rw [D_eq]; norm_num

theorem card_ne : (((32 * 256 : Nat) : ℝ)) ≠ 0 := by norm_num

/-- Multiplying by the reciprocal word is dividing by the count, at the infinities too. -/
theorem mul_s (x : EReal) : x * s = Ideal.div x D := by
  rw [D_eq, s_eq, Ideal.div_coe (by norm_num : (8192 : ℝ) ≠ 0)]

theorem eps_fin : IsFin eps := Cert.LibConsts.isFin_eps
theorem eps_pos : 0 < eps := Cert.LibConsts.eps_pos

end Cert.Lits
-- ==== Proof.LibMaskedGroupNet.lean ====
/- A two-layer network on masked inputs with a normalisation per group, over the extended reals, for any extents.
   For ONE group the inputs are a batch `x : [B, N]`, the group's mask row `[N]`, the first layer's weights `[H, N]` and
   bias `[H]`, the second layer's weights `[Z, H]` and bias `[Z]`, and two scale / shift pairs. The first layer is
       h b c = (∑ n, (x b n · mask n) · w c n) + bias c,
   a slab `[B, H]`; it is normalised over ALL its B·H entries (mean `μ`, variance `V`), scaled, shifted and clipped at
   zero, `max (γ · (h b c − μ) · rsqrt (V + ε) + β) 0`; the second layer is the plain affine map of that slab and is
   normalised the same way. The statistics come in two spellings: the mean as the total divided by the count or as the
   total times the count's reciprocal, the variance as the mean squared deviation or as the mean of the squares minus
   the squared mean. This module only DEFINES the two networks; that they agree at finite inputs is a separate module. -/
import Idealize.ShloMosaic.PureOps.Ideal
import Idealize.ShloMosaic.Lib.ValueIdx

namespace Cert.LibMaskedGroupNet

open Idealize.ShloMosaic Idealize.ShloMosaic.ValueIdx
open scoped BigOperators

variable {B N H Z C G : Nat}

/-- The first layer of one group: the batch times the group's mask row, against the weights, plus the bias. -/
noncomputable def lin1 (x : Fin B → Fin N → EReal) (mrow : Fin N → EReal) (w : Fin H → Fin N → EReal) (bias : Fin H → EReal) :
    Fin B → Fin H → EReal :=
  fun b c => (∑ n, (x b n * mrow n) * w c n) + bias c

/-- The second layer: a slab against the weights, plus the bias. -/
noncomputable def lin2 (a : Fin B → Fin H → EReal) (w : Fin Z → Fin H → EReal) (bias : Fin Z → EReal) : Fin B → Fin Z → EReal :=
  fun b z => (∑ c, a b c * w z c) + bias z

/-- The total of a slab. -/
noncomputable def tot (h : Fin B → Fin C → EReal) : EReal := ∑ b, ∑ c, h b c

/-- The mean as the total divided by the count `D`. -/
noncomputable def meanR (D : EReal) (h : Fin B → Fin C → EReal) : EReal := Ideal.div (tot h) D

/-- The variance as the mean squared deviation from that mean. -/
noncomputable def varR (D : EReal) (h : Fin B → Fin C → EReal) : EReal :=
  Ideal.div (tot fun b c => (h b c - meanR D h) * (h b c - meanR D h)) D

/-- The mean as the total times the count's reciprocal `s`. -/
noncomputable def meanK (s : EReal) (h : Fin B → Fin C → EReal) : EReal := tot h * s

/-- The variance as the mean of the squares minus the squared mean. -/
noncomputable def varK (s : EReal) (h : Fin B → Fin C → EReal) : EReal :=
  tot (fun b c => h b c * h b c) * s - meanK s h * meanK s h

/-- Normalise by a given mean and variance, scale, shift, clip at zero. -/
noncomputable def normRelu (μ V e γ β : EReal) (h : Fin B → Fin C → EReal) : Fin B → Fin C → EReal :=
  fun b c => max (γ * (h b c - μ) * Ideal.rsqrt (V + e) + β) 0

/-- The normalised slab, statistics by division and squared deviations. -/
noncomputable def actR (D e γ β : EReal) (h : Fin B → Fin C → EReal) : Fin B → Fin C → EReal :=
  normRelu (meanR D h) (varR D h) e γ β h

/-- The normalised slab, statistics by the reciprocal and the mean of squares. -/
noncomputable def actK (s e γ β : EReal) (h : Fin B → Fin C → EReal) : Fin B → Fin C → EReal :=
  normRelu (meanK s h) (varK s h) e γ β h

/-- One group's network, first spelling. -/
noncomputable def netR (D e : EReal) (x : Fin B → Fin N → EReal) (mrow : Fin N → EReal) (w1 : Fin H → Fin N → EReal)
    (b1 : Fin H → EReal) (γ1 β1 : EReal) (w2 : Fin Z → Fin H → EReal) (b2 : Fin Z → EReal) (γ2 β2 : EReal) :
    Fin B → Fin Z → EReal :=
  actR D e γ2 β2 (lin2 (actR D e γ1 β1 (lin1 x mrow w1 b1)) w2 b2)

/-- One group's network, second spelling. -/
noncomputable def netK (s e : EReal) (x : Fin B → Fin N → EReal) (mrow : Fin N → EReal) (w1 : Fin H → Fin N → EReal)
    (b1 : Fin H → EReal) (γ1 β1 : EReal) (w2 : Fin Z → Fin H → EReal) (b2 : Fin Z → EReal) (γ2 β2 : EReal) :
    Fin B → Fin Z → EReal :=
  actK s e γ2 β2 (lin2 (actK s e γ1 β1 (lin1 x mrow w1 b1)) w2 b2)

/-! ### The whole arrays: group `g` of the result is the group's network on mask row `g` and the group's scales -/

/-- A rank-2 array as a function of its two coordinates. -/
abbrev at2 {a b : Nat} (x : (⟨2, ![a, b]⟩ : Shape).Idx → EReal) : Fin a → Fin b → EReal := fun p q => x (ix2 p q)

/-- A rank-1 array as a function of its coordinate. -/
abbrev at1 {a : Nat} (x : (⟨1, ![a]⟩ : Shape).Idx → EReal) : Fin a → EReal := fun p => x (ix1 p)

/-- The result array `[B, G, Z]`, first spelling. -/
noncomputable def outR (D e : EReal) (x : (⟨2, ![B, N]⟩ : Shape).Idx → EReal) (mask : (⟨2, ![G, N]⟩ : Shape).Idx → EReal)
    (w1 : (⟨2, ![H, N]⟩ : Shape).Idx → EReal) (b1 : (⟨1, ![H]⟩ : Shape).Idx → EReal)
    (γ1 β1 : (⟨1, ![G]⟩ : Shape).Idx → EReal) (w2 : (⟨2, ![Z, H]⟩ : Shape).Idx → EReal) (b2 : (⟨1, ![Z]⟩ : Shape).Idx → EReal)
    (γ2 β2 : (⟨1, ![G]⟩ : Shape).Idx → EReal) : (⟨3, ![B, G, Z]⟩ : Shape).Idx → EReal :=
  fun i => netR D e (at2 x) (at2 mask (i 1)) (at2 w1) (at1 b1) (at1 γ1 (i 1)) (at1 β1 (i 1)) (at2 w2) (at1 b2)
    (at1 γ2 (i 1)) (at1 β2 (i 1)) (i 0) (i 2)

/-- The result array `[B, G, Z]`, second spelling. -/
noncomputable def outK (s e : EReal) (x : (⟨2, ![B, N]⟩ : Shape).Idx → EReal) (mask : (⟨2, ![G, N]⟩ : Shape).Idx → EReal)
    (w1 : (⟨2, ![H, N]⟩ : Shape).Idx → EReal) (b1 : (⟨1, ![H]⟩ : Shape).Idx → EReal)
    (γ1 β1 : (⟨1, ![G]⟩ : Shape).Idx → EReal) (w2 : (⟨2, ![Z, H]⟩ : Shape).Idx → EReal) (b2 : (⟨1, ![Z]⟩ : Shape).Idx → EReal)
    (γ2 β2 : (⟨1, ![G]⟩ : Shape).Idx → EReal) : (⟨3, ![B, G, Z]⟩ : Shape).Idx → EReal :=
  fun i => netK s e (at2 x) (at2 mask (i 1)) (at2 w1) (at1 b1) (at1 γ1 (i 1)) (at1 β1 (i 1)) (at2 w2) (at1 b2)
    (at1 γ2 (i 1)) (at1 β2 (i 1)) (i 0) (i 2)

end Cert.LibMaskedGroupNet
-- ==== Proof.LibBnVar.lean ====
/- The variance identity of batch normalisation. Over finitely many FINITE values `x r`, `r : Fin n`, with `n ≠ 0`,
   the mean of the squares minus the square of the mean equals the mean of the squared deviations from the mean:
       (∑ x²)/n − ((∑ x)/n)² = (∑ (x − (∑ x)/n)²)/n.
   At finite values every operation is the real one, so both sides are the coercion of one real number; expanding the
   square and using `∑ 1 = n` gives the identity in ℝ. (At an infinite `x r` the two sides are different junk values,
   which is why finiteness is assumed.) The common value is nonnegative and finite, and so is the mean finite. -/
import Idealize.ShloMosaic.PureOps.Ideal
import Mathlib.Algebra.BigOperators.Ring.Finset
import Mathlib.Algebra.Order.BigOperators.Ring.Finset
import Mathlib.Tactic.FieldSimp
import Mathlib.Tactic.Ring
import proofs.«164206_j25898652795510_1_alg».proof.Proof.LibFinite
import proofs.«164206_j25898652795510_1_alg».proof.Proof.LibConsts

namespace Cert.LibBnVar

open Idealize.ShloMosaic
open Cert.LibFinite
open scoped BigOperators

/-- The mean: the sum over the rows divided by the row count. -/
noncomputable abbrev mean {n : Nat} (x : Fin n → EReal) (D : EReal) : EReal := Ideal.div (∑ r, x r) D

/-- The kernel's variance: mean of squares minus squared mean. -/
noncomputable abbrev varK {n : Nat} (x : Fin n → EReal) (D : EReal) : EReal :=
  Ideal.div (∑ r, x r * x r) D - (Ideal.div (∑ r, x r) D) * (Ideal.div (∑ r, x r) D)

/-- The reference's variance: mean of the squared deviations from the mean. -/
noncomputable abbrev varR {n : Nat} (x : Fin n → EReal) (D : EReal) : EReal :=
  Ideal.div (∑ r, (x r - Ideal.div (∑ r, x r) D) * (x r - Ideal.div (∑ r, x r) D)) D

section Real

variable {n : Nat} (y : Fin n → ℝ)

/-- The identity in ℝ. -/
theorem real_var_eq (hn : (n : ℝ) ≠ 0) :
    (∑ r, y r * y r) / (n : ℝ) - ((∑ r, y r) / (n : ℝ)) * ((∑ r, y r) / (n : ℝ))
      = (∑ r, (y r - (∑ r, y r) / (n : ℝ)) * (y r - (∑ r, y r) / (n : ℝ))) / (n : ℝ) := by
  set m : ℝ := (∑ r, y r) / (n : ℝ) with hm
  have hS : (∑ r, y r) = m * (n : ℝ) := by rw [hm]; field_simp
  have hterm : ∀ r, (y r - m) * (y r - m) = y r * y r - 2 * m * y r + m * m := fun r => by ring
  have key : (∑ r, (y r - m) * (y r - m)) = (∑ r, y r * y r) - 2 * m * (∑ r, y r) + (n : ℝ) * (m * m) := by
    simp only [hterm, Finset.sum_add_distrib, Finset.sum_sub_distrib, ← Finset.mul_sum, Finset.sum_const,
      Finset.card_univ, Fintype.card_fin, nsmul_eq_mul]
    ring
  rw [key, hS]
  field_simp
  ring

/-- The real mean of squared deviations is nonnegative. -/
theorem real_varR_nonneg :
    0 ≤ (∑ r, (y r - (∑ r, y r) / (n : ℝ)) * (y r - (∑ r, y r) / (n : ℝ))) / (n : ℝ) :=
  div_nonneg (Finset.sum_nonneg fun r _ => mul_self_nonneg _) (Nat.cast_nonneg n)

end Real

section Coe

variable {n : Nat} (y : Fin n → ℝ)

/-- The mean of real values is the real mean. -/
theorem mean_coe (hn : (n : ℝ) ≠ 0) :
    Ideal.div (∑ r, ((y r : ℝ) : EReal)) ((n : ℝ) : EReal) = (((∑ r, y r) / (n : ℝ) : ℝ) : EReal) := by
  rw [← coe_sum, div_coe_coe _ hn]

/-- The kernel's variance of real values is a real number. -/
theorem varK_coe (hn : (n : ℝ) ≠ 0) :
    varK (fun r => ((y r : ℝ) : EReal)) ((n : ℝ) : EReal)
      = (((∑ r, y r * y r) / (n : ℝ) - ((∑ r, y r) / (n : ℝ)) * ((∑ r, y r) / (n : ℝ)) : ℝ) : EReal) := by
  show Ideal.div (∑ r, ((y r : ℝ) : EReal) * ((y r : ℝ) : EReal)) _ - Ideal.div (∑ r, ((y r : ℝ) : EReal)) _ * Ideal.div (∑ r, ((y r : ℝ) : EReal)) _ = _
  rw [mean_coe y hn]
  have h2 : (∑ r, ((y r : ℝ) : EReal) * ((y r : ℝ) : EReal)) = (((∑ r, y r * y r : ℝ)) : EReal) := by
    rw [coe_sum]; exact Finset.sum_congr rfl fun r _ => (EReal.coe_mul _ _).symm
  rw [h2, div_coe_coe _ hn, ← EReal.coe_mul, ← EReal.coe_sub]

/-- The reference's variance of real values is a real number. -/
theorem varR_coe (hn : (n : ℝ) ≠ 0) :
    varR (fun r => ((y r : ℝ) : EReal)) ((n : ℝ) : EReal)
      = (((∑ r, (y r - (∑ r, y r) / (n : ℝ)) * (y r - (∑ r, y r) / (n : ℝ))) / (n : ℝ) : ℝ) : EReal) := by
  show Ideal.div (∑ r, (((y r : ℝ) : EReal) - Ideal.div (∑ r, ((y r : ℝ) : EReal)) _) * (((y r : ℝ) : EReal) - Ideal.div (∑ r, ((y r : ℝ) : EReal)) _)) _ = _
  rw [mean_coe y hn]
  have h2 : (∑ r, (((y r : ℝ) : EReal) - (((∑ r, y r) / (n : ℝ) : ℝ) : EReal)) * (((y r : ℝ) : EReal) - (((∑ r, y r) / (n : ℝ) : ℝ) : EReal)))
      = (((∑ r, (y r - (∑ r, y r) / (n : ℝ)) * (y r - (∑ r, y r) / (n : ℝ)) : ℝ)) : EReal) := by
    rw [coe_sum]; exact Finset.sum_congr rfl fun r _ => by rw [← EReal.coe_sub, ← EReal.coe_mul]
  rw [h2, div_coe_coe _ hn]

end Coe

variable {n : Nat} {x : Fin n → EReal} {D : EReal}

/-- Finite values are the coercions of their real parts, as a function. -/
theorem eq_coe_toReal (hx : ∀ r, IsFin (x r)) : x = fun r => (((x r).toReal : ℝ) : EReal) :=
  funext fun r => (hx r).coe_toReal.symm

/-- THE variance identity: the kernel's form and the reference's are one value at finite inputs. -/
theorem var_eq (hn : (n : ℝ) ≠ 0) (hx : ∀ r, IsFin (x r)) (hD : D = ((n : ℝ) : EReal)) : varK x D = varR x D := by
  subst hD
  rw [eq_coe_toReal hx, varK_coe _ hn, varR_coe _ hn, real_var_eq _ hn]

/-- The reference's variance is nonnegative. -/
theorem varR_nonneg (hn : (n : ℝ) ≠ 0) (hx : ∀ r, IsFin (x r)) (hD : D = ((n : ℝ) : EReal)) : 0 ≤ varR x D := by
  subst hD
  rw [eq_coe_toReal hx, varR_coe _ hn]
  exact EReal.coe_nonneg.mpr (real_varR_nonneg _)

/-- The reference's variance is finite. -/
theorem varR_fin (hn : (n : ℝ) ≠ 0) (hx : ∀ r, IsFin (x r)) (hD : D = ((n : ℝ) : EReal)) : IsFin (varR x D) := by
  subst hD
  rw [eq_coe_toReal hx, varR_coe _ hn]
  exact isFin_coe _

/-- So is the kernel's, and it is nonnegative: it is the same value. -/
theorem varK_nonneg (hn : (n : ℝ) ≠ 0) (hx : ∀ r, IsFin (x r)) (hD : D = ((n : ℝ) : EReal)) : 0 ≤ varK x D := by
  rw [var_eq hn hx hD]; exact varR_nonneg hn hx hD

theorem varK_fin (hn : (n : ℝ) ≠ 0) (hx : ∀ r, IsFin (x r)) (hD : D = ((n : ℝ) : EReal)) : IsFin (varK x D) := by
  rw [var_eq hn hx hD]; exact varR_fin hn hx hD

/-- The mean is finite. -/
theorem mean_fin (hn : (n : ℝ) ≠ 0) (hx : ∀ r, IsFin (x r)) (hD : D = ((n : ℝ) : EReal)) :
    IsFin (Ideal.div (∑ r, x r) D) := by
  subst hD
  rw [eq_coe_toReal hx, mean_coe _ hn]
  exact isFin_coe _

/-! ### At fifty thousand rows, the divisor spelled as the program's literal `50000.0` -/

theorem n50000_ne : ((50000 : Nat) : ℝ) ≠ 0 := by norm_num

theorem D50000 : Ideal.ofBits .f32 0x47435000#32 = (((50000 : Nat) : ℝ) : EReal) := by
  rw [Cert.LibConsts.ofBits_50000]; norm_num

variable {z : Fin 50000 → EReal}

theorem var_eq_50000 (hz : ∀ r, IsFin (z r)) :
    Ideal.div (∑ r, z r * z r) (Ideal.ofBits .f32 0x47435000#32)
        - (Ideal.div (∑ r, z r) (Ideal.ofBits .f32 0x47435000#32)) * (Ideal.div (∑ r, z r) (Ideal.ofBits .f32 0x47435000#32))
      = Ideal.div (∑ r, (z r - Ideal.div (∑ r, z r) (Ideal.ofBits .f32 0x47435000#32))
          * (z r - Ideal.div (∑ r, z r) (Ideal.ofBits .f32 0x47435000#32))) (Ideal.ofBits .f32 0x47435000#32) :=
  var_eq n50000_ne hz D50000

theorem varR_nonneg_50000 (hz : ∀ r, IsFin (z r)) :
    0 ≤ Ideal.div (∑ r, (z r - Ideal.div (∑ r, z r) (Ideal.ofBits .f32 0x47435000#32))
          * (z r - Ideal.div (∑ r, z r) (Ideal.ofBits .f32 0x47435000#32))) (Ideal.ofBits .f32 0x47435000#32) :=
  varR_nonneg n50000_ne hz D50000

theorem varR_fin_50000 (hz : ∀ r, IsFin (z r)) :
    IsFin (Ideal.div (∑ r, (z r - Ideal.div (∑ r, z r) (Ideal.ofBits .f32 0x47435000#32))
          * (z r - Ideal.div (∑ r, z r) (Ideal.ofBits .f32 0x47435000#32))) (Ideal.ofBits .f32 0x47435000#32)) :=
  varR_fin n50000_ne hz D50000

theorem mean_fin_50000 (hz : ∀ r, IsFin (z r)) : IsFin (Ideal.div (∑ r, z r) (Ideal.ofBits .f32 0x47435000#32)) :=
  mean_fin n50000_ne hz D50000

end Cert.LibBnVar
-- ==== Proof.LibMaskedGroupNetLaw.lean ====
/- The two spellings of the masked two-layer group network agree at finite inputs (see LibMaskedGroupNet for the
   definitions). With the count `D = B·H = B·Z` a nonzero natural number, `s` a reciprocal word with `x · s = x / D` at every
   extended real, and `ε` finite and positive: the first layer of finite inputs is finite, so the two variances of the
   first slab are one value (mean of squares minus squared mean = mean squared deviation, a real identity), so the two
   normalised slabs agree and are finite (the variance plus ε is positive, its reciprocal square root a real); the second
   layer of that finite slab is finite, and the same identity gives the second normalisation. -/
import proofs.«164206_j25898652795510_1_alg».proof.Proof.LibMaskedGroupNet
import proofs.«164206_j25898652795510_1_alg».proof.Proof.LibFinite
import proofs.«164206_j25898652795510_1_alg».proof.Proof.LibConsts
import proofs.«164206_j25898652795510_1_alg».proof.Proof.LibBnVar
import Mathlib.Data.Fintype.BigOperators
import Mathlib.Logic.Equiv.Fin.Basic

namespace Cert.LibMaskedGroupNet

open Idealize.ShloMosaic Idealize.ShloMosaic.ValueIdx Cert.LibFinite
open scoped BigOperators

variable {B N H Z G : Nat}

/-! ### A slab read along one index

A slab `h : Fin B → Fin C → EReal` has `B·C` entries; the bijection `Fin B × Fin C ≃ Fin (B·C)` lists them along one
index, and a total over the two coordinates is the total over that one index. The one-index statements about the mean
and the two variances then apply to a slab. -/

section Slab

variable {C : Nat}

/-- The entries of a slab listed along one index of `Fin (B·C)`. -/
noncomputable def slabList (h : Fin B → Fin C → EReal) : Fin (B * C) → EReal :=
  fun r => h (finProdFinEquiv.symm r).1 (finProdFinEquiv.symm r).2

/-- The total over the two coordinates is the total over the one index. -/
theorem tot_eq_sum_slabList (h : Fin B → Fin C → EReal) : tot h = ∑ r, slabList h r := by
  unfold tot slabList
  rw [← Fintype.sum_prod_type' (fun b c => h b c)]
  exact (Equiv.sum_comp finProdFinEquiv.symm (fun p : Fin B × Fin C => h p.1 p.2)).symm

/-- Every entry of the listing is an entry of the slab, so a finite slab has a finite listing. -/
theorem slabList_fin {h : Fin B → Fin C → EReal} (hh : ∀ b c, IsFin (h b c)) : ∀ r, IsFin (slabList h r) :=
  fun r => hh _ _

/-- The mean by division is the one-index mean of the listing. -/
theorem meanR_eq_slabList (D : EReal) (h : Fin B → Fin C → EReal) : meanR D h = Ideal.div (∑ r, slabList h r) D := by
  unfold meanR; rw [tot_eq_sum_slabList]

/-- The mean by the reciprocal is the mean by division: `x · s = x / D` at the total. -/
theorem meanK_eq_meanR {D s : EReal} (hs : ∀ x : EReal, x * s = Ideal.div x D) (h : Fin B → Fin C → EReal) :
    meanK s h = meanR D h := hs _

/-- The variance as mean squared deviation is the one-index one of the listing. -/
theorem varR_eq_slabList (D : EReal) (h : Fin B → Fin C → EReal) : varR D h = Cert.LibBnVar.varR (slabList h) D := by
  unfold varR
  rw [tot_eq_sum_slabList, meanR_eq_slabList]
  rfl

/-- The variance as mean of squares minus squared mean is the one-index one of the listing. -/
theorem varK_eq_slabList {D s : EReal} (hs : ∀ x : EReal, x * s = Ideal.div x D) (h : Fin B → Fin C → EReal) :
    varK s h = Cert.LibBnVar.varK (slabList h) D := by
  unfold varK
  rw [meanK_eq_meanR hs, hs, tot_eq_sum_slabList, meanR_eq_slabList]
  rfl

variable {D s e : EReal} {h : Fin B → Fin C → EReal}

/-- The two variances of a finite slab are one value: the mean of the squares minus the squared mean is the mean
    squared deviation. -/
theorem varK_eq_varR (hD : D = (((B * C : Nat) : ℝ) : EReal)) (hn : ((B * C : Nat) : ℝ) ≠ 0)
    (hs : ∀ x : EReal, x * s = Ideal.div x D) (hh : ∀ b c, IsFin (h b c)) : varK s h = varR D h := by
  rw [varK_eq_slabList hs, varR_eq_slabList]
  exact Cert.LibBnVar.var_eq hn (slabList_fin hh) hD

/-- The mean of a finite slab is finite. -/
theorem slab_meanR_fin (hD : D = (((B * C : Nat) : ℝ) : EReal)) (hn : ((B * C : Nat) : ℝ) ≠ 0)
    (hh : ∀ b c, IsFin (h b c)) : IsFin (meanR D h) := by
  rw [meanR_eq_slabList]
  exact Cert.LibBnVar.mean_fin hn (slabList_fin hh) hD

/-- The variance of a finite slab is finite. -/
theorem slab_varR_fin (hD : D = (((B * C : Nat) : ℝ) : EReal)) (hn : ((B * C : Nat) : ℝ) ≠ 0)
    (hh : ∀ b c, IsFin (h b c)) : IsFin (varR D h) := by
  rw [varR_eq_slabList]
  exact Cert.LibBnVar.varR_fin hn (slabList_fin hh) hD

/-- The variance of a finite slab is nonnegative. -/
theorem slab_varR_nonneg (hD : D = (((B * C : Nat) : ℝ) : EReal)) (hn : ((B * C : Nat) : ℝ) ≠ 0)
    (hh : ∀ b c, IsFin (h b c)) : 0 ≤ varR D h := by
  rw [varR_eq_slabList]
  exact Cert.LibBnVar.varR_nonneg hn (slabList_fin hh) hD

/-- The two normalised slabs of a finite slab are one slab: their means agree by `x · s = x / D`, their variances by
    the identity above; the scale and the shift play no part. -/
theorem actK_eq_actR (hD : D = (((B * C : Nat) : ℝ) : EReal)) (hn : ((B * C : Nat) : ℝ) ≠ 0)
    (hs : ∀ x : EReal, x * s = Ideal.div x D) (hh : ∀ b c, IsFin (h b c)) (γ β : EReal) :
    actK s e γ β h = actR D e γ β h := by
  unfold actK actR
  rw [meanK_eq_meanR hs, varK_eq_varR hD hn hs hh]

/-- The normalised slab of a finite slab, with a finite scale and shift, is finite: the variance is finite and
    nonnegative, so the variance plus a positive finite ε is finite and positive and its reciprocal square root is a
    real; differences, products, sums and a maximum with zero of finite values are finite. -/
theorem actR_fin (hD : D = (((B * C : Nat) : ℝ) : EReal)) (hn : ((B * C : Nat) : ℝ) ≠ 0)
    (he : IsFin e) (hepos : 0 < e) {γ β : EReal} (hγ : IsFin γ) (hβ : IsFin β) (hh : ∀ b c, IsFin (h b c)) :
    ∀ b c, IsFin (actR D e γ β h b c) := by
  intro b c
  have hV : IsFin (varR D h + e) := (slab_varR_fin hD hn hh).add he
  have hVpos : 0 < varR D h + e := add_pos_of_nonneg_of_pos (slab_varR_nonneg hD hn hh) hepos
  exact ((((hγ.mul ((hh b c).sub (slab_meanR_fin hD hn hh))).mul (hV.rsqrt hVpos)).add hβ).max isFin_zero)

end Slab

/-- The first layer of finite inputs is finite: finite sums of products of finite values, plus a finite bias. -/
theorem lin1_fin {x : Fin B → Fin N → EReal} {mrow : Fin N → EReal} {w : Fin H → Fin N → EReal} {bias : Fin H → EReal}
    (hx : ∀ b n, IsFin (x b n)) (hm : ∀ n, IsFin (mrow n)) (hw : ∀ c n, IsFin (w c n)) (hb : ∀ c, IsFin (bias c)) :
    ∀ b c, IsFin (lin1 x mrow w bias b c) :=
  fun b c => (isFin_sum_univ _ fun n => ((hx b n).mul (hm n)).mul (hw c n)).add (hb c)

/-- The second layer of a finite slab is finite. -/
theorem lin2_fin {a : Fin B → Fin H → EReal} {w : Fin Z → Fin H → EReal} {bias : Fin Z → EReal}
    (ha : ∀ b c, IsFin (a b c)) (hw : ∀ z c, IsFin (w z c)) (hb : ∀ z, IsFin (bias z)) :
    ∀ b z, IsFin (lin2 a w bias b z) :=
  fun b z => (isFin_sum_univ _ fun c => (ha b c).mul (hw z c)).add (hb z)

/-- One group: the two spellings are one function at finite inputs. -/
theorem netK_eq_netR {D s e : EReal} (hD1 : D = (((B * H : Nat) : ℝ) : EReal)) (hD2 : D = (((B * Z : Nat) : ℝ) : EReal))
    (hBH : ((B * H : Nat) : ℝ) ≠ 0) (hBZ : ((B * Z : Nat) : ℝ) ≠ 0) (hs : ∀ x : EReal, x * s = Ideal.div x D)
    (he : IsFin e) (hepos : 0 < e)
    {x : Fin B → Fin N → EReal} {mrow : Fin N → EReal} {w1 : Fin H → Fin N → EReal} {b1 : Fin H → EReal} {γ1 β1 : EReal}
    {w2 : Fin Z → Fin H → EReal} {b2 : Fin Z → EReal} {γ2 β2 : EReal}
    (hx : ∀ b n, IsFin (x b n)) (hm : ∀ n, IsFin (mrow n)) (hw1 : ∀ c n, IsFin (w1 c n)) (hb1 : ∀ c, IsFin (b1 c))
    (hγ1 : IsFin γ1) (hβ1 : IsFin β1) (hw2 : ∀ z c, IsFin (w2 z c)) (hb2 : ∀ z, IsFin (b2 z)) :
    netK s e x mrow w1 b1 γ1 β1 w2 b2 γ2 β2 = netR D e x mrow w1 b1 γ1 β1 w2 b2 γ2 β2 := by
  unfold netK netR
  -- the first slab is finite, so its two normalisations are one slab, and that slab is finite
  have h1 : ∀ b c, IsFin (lin1 x mrow w1 b1 b c) := lin1_fin hx hm hw1 hb1
  rw [actK_eq_actR hD1 hBH hs h1]
  have h2 : ∀ b c, IsFin (actR D e γ1 β1 (lin1 x mrow w1 b1) b c) := actR_fin hD1 hBH he hepos hγ1 hβ1 h1
  -- the second slab is finite, so its two normalisations are one slab
  have h3 : ∀ b z, IsFin (lin2 (actR D e γ1 β1 (lin1 x mrow w1 b1)) w2 b2 b z) := lin2_fin h2 hw2 hb2
  exact actK_eq_actR hD2 hBZ hs h3 γ2 β2

/-- The whole arrays: the two spellings are one array when every entry of every input is finite. -/
theorem outK_eq_outR {D s e : EReal} (hD1 : D = (((B * H : Nat) : ℝ) : EReal)) (hD2 : D = (((B * Z : Nat) : ℝ) : EReal))
    (hBH : ((B * H : Nat) : ℝ) ≠ 0) (hBZ : ((B * Z : Nat) : ℝ) ≠ 0) (hs : ∀ x : EReal, x * s = Ideal.div x D)
    (he : IsFin e) (hepos : 0 < e)
    {x : (⟨2, ![B, N]⟩ : Shape).Idx → EReal} {mask : (⟨2, ![G, N]⟩ : Shape).Idx → EReal}
    {w1 : (⟨2, ![H, N]⟩ : Shape).Idx → EReal} {b1 : (⟨1, ![H]⟩ : Shape).Idx → EReal}
    {γ1 β1 : (⟨1, ![G]⟩ : Shape).Idx → EReal} {w2 : (⟨2, ![Z, H]⟩ : Shape).Idx → EReal} {b2 : (⟨1, ![Z]⟩ : Shape).Idx → EReal}
    {γ2 β2 : (⟨1, ![G]⟩ : Shape).Idx → EReal}
    (hx : ∀ i, IsFin (x i)) (hmask : ∀ i, IsFin (mask i)) (hw1 : ∀ i, IsFin (w1 i)) (hb1 : ∀ i, IsFin (b1 i))
    (hγ1 : ∀ i, IsFin (γ1 i)) (hβ1 : ∀ i, IsFin (β1 i)) (hw2 : ∀ i, IsFin (w2 i)) (hb2 : ∀ i, IsFin (b2 i)) :
    outK s e x mask w1 b1 γ1 β1 w2 b2 γ2 β2 = outR D e x mask w1 b1 γ1 β1 w2 b2 γ2 β2 := by
  funext i
  unfold outK outR
  -- group `i 1` of the result is that group's network on coordinate functions of finite arrays
  rw [netK_eq_netR hD1 hD2 hBH hBZ hs he hepos (fun b n => hx _) (fun n => hmask _) (fun c n => hw1 _) (fun c => hb1 _)
    (hγ1 _) (hβ1 _) (fun z c => hw2 _) (fun z => hb2 _)]

end Cert.LibMaskedGroupNet
-- ==== Proof.FinitePre.lean ====
/- From the precondition to finiteness. The precondition says that each of the ten argument arrays has every entry of
   absolute value below `+∞`; at the extended reals that is: every entry is a real number. -/
import proofs.«164206_j25898652795510_1_alg».proof.Defs
import proofs.«164206_j25898652795510_1_alg».proof.Proof.Gen.Pre_finite_inputs
import proofs.«164206_j25898652795510_1_alg».proof.Proof.LibFinite
import Idealize.ShloMosaic.Lib.ReduceAll
import Idealize.ShloMosaic.PureOps.Ideal.Laws

noncomputable section

namespace Cert.FinitePre

open Idealize.ShloMosaic Idealize.ShloMosaic.TcCoe Idealize.SL.Sem Cert.LibFinite

/-- The shape of rank zero has exactly one index. -/
local instance : Subsingleton Cert.Pre_finite_inputs.S_.Idx := ⟨fun a b => funext fun d => d.elim0⟩

/-- The bit pattern of positive infinity denotes the top of the extended reals. -/
theorem ofBits_inf : Ideal.ofBits .f32 0x7F800000#32 = (⊤ : EReal) := by
  simp [Ideal.ofBits, Ideal.ieee]

/-- An extended real whose absolute value lies strictly below the top is finite. -/
theorem isFin_of_abs_lt_top (a : EReal)
    (h : (FloatOps.cmpf (F := Ideal) (φ := .f32) .olt (FloatOps.hostAbsf (F := Ideal) (φ := .f32) a) (FloatOps.ofBits (F := Ideal) .f32 0x7F800000#32)) = 1#1) :
    IsFin a := by
  rw [Ideal.hostAbsf_def, Ideal.absf_def, Ideal.ofBits_def, ofBits_inf, Ideal.cmpf_def] at h
  have hlt : max a (-a) < (⊤ : EReal) := by
    by_contra hn
    simp [Ideal.cmp, hn] at h
  constructor
  · rintro rfl
    exact absurd hlt (by simp)
  · rintro rfl
    exact absurd hlt (by simp)

/-- A whole array, compared entry by entry in absolute value with positive infinity and reduced by conjunction to one
    word: if that word is 1, every entry of the array is finite. -/
theorem all_fin {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu j = 1#1) (i : s.Idx) : IsFin (x i) :=
  isFin_of_abs_lt_top (x i) (Host.reduce_andi_all _ _ hr hu j e i)

/-- A conjunction of two one-bit arrays that is 1 at an index: both arrays are 1 there. -/
theorem vand_eq_one {s : Shape} (x y : IVec s 1) (j : s.Idx) (h : andi x y j = 1#1) : x j = 1#1 ∧ y j = 1#1 :=
  IntOp.andi_eq_one.1 h

/-- Under the precondition every entry of every argument array is finite. -/
theorem of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, IsFin ((m ((c.tc : Thread Cert.KernelIdeal.nD Cert.KernelIdeal.τ).loc Cert.KernelIdeal.main_arg0)) i)) ∧
    (∀ i, IsFin ((m ((c.tc : Thread Cert.KernelIdeal.nD Cert.KernelIdeal.τ).loc Cert.KernelIdeal.main_arg1)) i)) ∧
    (∀ i, IsFin ((m ((c.tc : Thread Cert.KernelIdeal.nD Cert.KernelIdeal.τ).loc Cert.KernelIdeal.main_arg2)) i)) ∧
    (∀ i, IsFin ((m ((c.tc : Thread Cert.KernelIdeal.nD Cert.KernelIdeal.τ).loc Cert.KernelIdeal.main_arg3)) i)) ∧
    (∀ i, IsFin ((m ((c.tc : Thread Cert.KernelIdeal.nD Cert.KernelIdeal.τ).loc Cert.KernelIdeal.main_arg4)) i)) ∧
    (∀ i, IsFin ((m ((c.tc : Thread Cert.KernelIdeal.nD Cert.KernelIdeal.τ).loc Cert.KernelIdeal.main_arg5)) i)) ∧
    (∀ i, IsFin ((m ((c.tc : Thread Cert.KernelIdeal.nD Cert.KernelIdeal.τ).loc Cert.KernelIdeal.main_arg6)) i)) ∧
    (∀ i, IsFin ((m ((c.tc : Thread Cert.KernelIdeal.nD Cert.KernelIdeal.τ).loc Cert.KernelIdeal.main_arg7)) i)) ∧
    (∀ i, IsFin ((m ((c.tc : Thread Cert.KernelIdeal.nD Cert.KernelIdeal.τ).loc Cert.KernelIdeal.main_arg8)) i)) ∧
    (∀ i, IsFin ((m ((c.tc : Thread Cert.KernelIdeal.nD Cert.KernelIdeal.τ).loc Cert.KernelIdeal.main_arg9)) i)) := by
  have h := congrFun (hpre c) (fun a => a.elim0)
  dsimp only [Cert.Pre_finite_inputs.fn, Cert.Pre_finite_inputs.fn_part1, Cert.Pre_finite_inputs.fn_part2] at h
  obtain ⟨h, h9⟩ := vand_eq_one _ _ _ h
  obtain ⟨h, h8⟩ := vand_eq_one _ _ _ h
  obtain ⟨h, h7⟩ := vand_eq_one _ _ _ h
  obtain ⟨h, h6⟩ := vand_eq_one _ _ _ h
  obtain ⟨h, h5⟩ := vand_eq_one _ _ _ h
  obtain ⟨h, h4⟩ := vand_eq_one _ _ _ h
  obtain ⟨h, h3⟩ := vand_eq_one _ _ _ h
  obtain ⟨h, h2⟩ := vand_eq_one _ _ _ h
  obtain ⟨h0, h1⟩ := vand_eq_one _ _ _ h
  exact ⟨all_fin _ _ _ _ _ h0, all_fin _ _ _ _ _ h1, all_fin _ _ _ _ _ h2, all_fin _ _ _ _ _ h3, all_fin _ _ _ _ _ h4,
    all_fin _ _ _ _ _ h5, all_fin _ _ _ _ _ h6, all_fin _ _ _ _ _ h7, all_fin _ _ _ _ _ h8, all_fin _ _ _ _ _ h9⟩

end Cert.FinitePre

end
-- ==== Proof.KernelBody.lean ====
/- What one grid point leaves in the output block, as the group network. The body's one store writes, at block index
   `(b, j, z)`, the masked two-layer group network in its second spelling (`LibMaskedGroupNet.netK`) of the batch block, row `j`
   of the mask block, the weights and biases, and entry `j` of each scale / shift column. -/
import proofs.«164206_j25898652795510_1_alg».proof.Proof.Gen.KernelIdeal.Frame
import proofs.«164206_j25898652795510_1_alg».proof.Proof.LibMaskedGroupNet
import proofs.«164206_j25898652795510_1_alg».proof.Proof.Lits
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.TcCoe Idealize.ShloMosaic.ValueIdx
open Cert.LibMaskedGroupNet
open scoped BigOperators

/-! ## Layout: a column [16,1] seen as [1,16,1] and spread over the block [32,16,256]; rows 16·b + j -/

/-- The column as [1,16,1], at (0, j, 0), is the column at (j, 0). -/
theorem castCol_apply (v : FVec Ideal S16x1 .f32) (h : S16x1.ShapeCasts S1x16x1) (j : Fin 16) :
    shapeCast S1x16x1 v h (ix3 (0 : Fin 1) j (0 : Fin 1)) = v (ix2 j (0 : Fin 1)) :=
  shapeCast_apply v h _ _ (by
    rw [Shape.rowMajor_val_two, Shape.rowMajor_val_three]
    show j.val * 1 + 0 = (0 * 16 + j.val) * 1 + 0
    omega)

/-- A [1,16,1] array spread over [32,16,256] reads, at (b, j, c), its entry (0, j, 0). -/
theorem spread_apply (v : FVec Ideal S1x16x1 .f32) (h : S1x16x1.Broadcasts S32x16x256) (b : Fin 32) (j : Fin 16) (c : Fin 256) :
    broadcastTo S32x16x256 v h (ix3 b j c) = v (ix3 (0 : Fin 1) j (0 : Fin 1)) :=
  broadcastTo_apply v h (ix3 b j c) (ix3 (0 : Fin 1) j (0 : Fin 1)) fun a =>
    match a with
    | ⟨0, _⟩ => by show 0 = (if (1 : Nat) = 1 then 0 else b.val); rw [if_pos rfl]
    | ⟨1, _⟩ => by show j.val = (if (16 : Nat) = 1 then 0 else j.val); rw [if_neg (by decide)]
    | ⟨2, _⟩ => by show 0 = (if (1 : Nat) = 1 then 0 else c.val); rw [if_pos rfl]

/-- A vector [16] as a column [16,1], at (j, 0), is the vector at j. -/
theorem colOfVec_apply (v : FVec Ideal S16 .f32) (h : S16.ShapeCasts S16x1) (j : Fin 16) :
    shapeCast S16x1 v h (ix2 j (0 : Fin 1)) = v (ix1 j) :=
  shapeCast_apply v h _ _ (by
    rw [Shape.rowMajor_val_one, Shape.rowMajor_val_two]
    show j.val = j.val * 1 + 0
    omega)

/-- The row m = 16·b + j of the [512, ·] matrices. -/
abbrev row (b : Fin 32) (j : Fin 16) : Fin 512 := ⟨b.val * 16 + j.val, by omega⟩

/-- A [512,256] matrix as [32,16,256], at (b, j, c), is the matrix at (16·b + j, c). -/
theorem unrow_apply (v : FVec Ideal S512x256 .f32) (h : S512x256.ShapeCasts S32x16x256) (b : Fin 32) (j : Fin 16) (c : Fin 256) :
    shapeCast S32x16x256 v h (ix3 b j c) = v (ix2 (row b j) c) :=
  shapeCast_apply v h _ _ (by
    rw [Shape.rowMajor_val_two, Shape.rowMajor_val_three]
    show (b.val * 16 + j.val) * 256 + c.val = (b.val * 16 + j.val) * 256 + c.val
    rfl)

/-- A [32,16,256] block as [512,256], at (16·b + j, c), is the block at (b, j, c). -/
theorem rowOf_apply (v : FVec Ideal S32x16x256 .f32) (h : S32x16x256.ShapeCasts S512x256) (b : Fin 32) (j : Fin 16) (c : Fin 256) :
    shapeCast S512x256 v h (ix2 (row b j) c) = v (ix3 b j c) :=
  shapeCast_apply v h _ _ (by
    rw [Shape.rowMajor_val_two, Shape.rowMajor_val_three]
    show (b.val * 16 + j.val) * 256 + c.val = (b.val * 16 + j.val) * 256 + c.val
    rfl)

/-- The same for the [32,16,10000] block of masked inputs. -/
theorem rowOfN_apply (v : FVec Ideal S32x16x10000 .bf16) (h : S32x16x10000.ShapeCasts S512x10000) (b : Fin 32) (j : Fin 16)
    (n : Fin 10000) : shapeCast S512x10000 v h (ix2 (row b j) n) = v (ix3 b j n) :=
  shapeCast_apply v h _ _ (by
    rw [Shape.rowMajor_val_two, Shape.rowMajor_val_three]
    show (b.val * 16 + j.val) * 10000 + n.val = (b.val * 16 + j.val) * 10000 + n.val
    rfl)

/-- The bias [256] as a row [1,256] spread over [512,256] reads, at (m, c), the bias at c. -/
theorem biasRow_apply (v : FVec Ideal S256 .f32) (h : S256.ShapeCasts S1x256) (h' : S1x256.Broadcasts S512x256) (m : Fin 512)
    (c : Fin 256) : broadcastTo S512x256 (shapeCast S1x256 v h) h' (ix2 m c) = v (ix1 c) :=
  (broadcastTo_1b_ab_apply _ h' m c).trans (shapeCast_a_1a_apply v h (0 : Fin 1) c)

/-! ## A product contracted on the last axis of both operands, into the zero accumulator -/

/-- An [M,K] matrix times an [N,K] matrix, each contracted on its last axis, accumulated into zeros, read at (a, b):
    the sum over the contracted coordinate of the products of the entries. -/
theorem matmulT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## The statistics of a slab [32,16,256], group by group -/

/-- The sum over the batch axis, then over the lanes, at group j, is the total of the group's slab. -/
theorem sumCol_apply (h : FVec Ideal S32x16x256 .f32) (r0 : S32x16x256.Reduces [0] S16x256) (r1 : S16x256.Reduces [1] S16)
    (j : Fin 16) :
    multiReduction (F := Ideal) .add [1] S16 (multiReduction (F := Ideal) .add [0] S16x256 h 0x00000000#32 r0 (.inl rfl) rfl)
        0x00000000#32 r1 (.inl rfl) rfl (ix1 j)
      = tot (fun b c => h (ix3 b j c)) := by
  refine (Ideal.multiReduction_add_single _ 0x00000000#32 r1 (.inl rfl) rfl (ix1 j)).trans ?_
  refine (Finset.sum_congr rfl fun c _ =>
    Ideal.multiReduction_add_single h 0x00000000#32 r0 (.inl rfl) rfl (r1.lift (ix1 j) c)).trans ?_
  unfold tot
  refine Finset.sum_comm.trans ?_
  refine Finset.sum_congr rfl fun b _ => Finset.sum_congr rfl fun c _ => congrArg h ?_
  funext a; apply Fin.ext
  match a with
  | ⟨0, _⟩ => rfl
  | ⟨1, _⟩ => rfl
  | ⟨2, _⟩ => rfl

/-- The mean column of a slab, as the body spells it: the total times the reciprocal word of the count. -/
def meanCol (h : FVec Ideal S32x16x256 .f32) : FVec Ideal S16x1 .f32 :=
  mulf (shapeCast S16x1 (multiReduction .add [1] S16 (multiReduction .add [0] S16x256 h 0x00000000#32
    reduces_S32x16x256_S16x256 (.inl rfl) rfl) 0x00000000#32 reduces_S16x256_S16 (.inl rfl) rfl) shapeCasts_S16_S16x1)
    (broadcast S16x1 (Scalar.ofBits .f32 0x39000000#32))

/-- At group j it is the mean of the group's slab. -/
theorem meanCol_apply (h : FVec Ideal S32x16x256 .f32) (j : Fin 16) :
    meanCol h (ix2 j (0 : Fin 1)) = meanK Cert.Lits.s (fun b c => h (ix3 b j c)) :=
  congrArg (fun t : EReal => t * Cert.Lits.s) ((colOfVec_apply _ _ j).trans (sumCol_apply h _ _ j))

/-- The reciprocal standard deviation of a slab as [1,16,1], as the body spells it: the reciprocal square root of the
    mean of the squares minus the squared mean plus the epsilon. -/
def rstdCol (h : FVec Ideal S32x16x256 .f32) : FVec Ideal S1x16x1 .f32 :=
  shapeCast S1x16x1 (rsqrt (addf (subf (meanCol (mulf h h)) (mulf (meanCol h) (meanCol h)))
    (broadcast S16x1 (Scalar.ofBits .f32 0x3727C5AC#32)))) shapeCasts_S16x1_S1x16x1

/-- At group j it is the reciprocal square root of the group's variance plus the epsilon. -/
theorem rstdCol_apply (h : FVec Ideal S32x16x256 .f32) (j : Fin 16) :
    rstdCol h (ix3 (0 : Fin 1) j (0 : Fin 1)) = Ideal.rsqrt (varK Cert.Lits.s (fun b c => h (ix3 b j c)) + Cert.Lits.eps) := by
  refine (castCol_apply _ _ j).trans ?_
  show Ideal.rsqrt (meanCol (mulf h h) (ix2 j (0 : Fin 1)) - meanCol h (ix2 j (0 : Fin 1)) * meanCol h (ix2 j (0 : Fin 1))
    + Cert.Lits.eps) = _
  rw [meanCol_apply, meanCol_apply]
  rfl

/-- Normalise by a mean and a reciprocal deviation given as [1,16,1], scale and shift by columns [16,1], clip at zero: the
    body's text of it. -/
def normClip (h : FVec Ideal S32x16x256 .f32) (γ β : FVec Ideal S16x1 .f32) (μ r : FVec Ideal S1x16x1 .f32) :
    FVec Ideal S32x16x256 .f32 :=
  maximumf (addf (mulf (mulf (broadcastTo S32x16x256 (shapeCast S1x16x1 γ shapeCasts_S16x1_S1x16x1) broadcasts_S1x16x1_S32x16x256)
    (subf h (broadcastTo S32x16x256 μ broadcasts_S1x16x1_S32x16x256))) (broadcastTo S32x16x256 r broadcasts_S1x16x1_S32x16x256))
    (broadcastTo S32x16x256 (shapeCast S1x16x1 β shapeCasts_S16x1_S1x16x1) broadcasts_S1x16x1_S32x16x256))
    (broadcast S32x16x256 (Scalar.ofBits .f32 0x00000000#32))

/-- At (b, j, c): the entry minus group j's mean, times group j's scale and reciprocal deviation, plus its shift, clipped. -/
theorem normClip_apply (h : FVec Ideal S32x16x256 .f32) (γ β : FVec Ideal S16x1 .f32) (μ r : FVec Ideal S1x16x1 .f32)
    (b : Fin 32) (j : Fin 16) (c : Fin 256) :
    normClip h γ β μ r (ix3 b j c)
      = max (γ (ix2 j (0 : Fin 1)) * (h (ix3 b j c) - μ (ix3 (0 : Fin 1) j (0 : Fin 1))) * r (ix3 (0 : Fin 1) j (0 : Fin 1))
          + β (ix2 j (0 : Fin 1))) 0 := by
  unfold normClip
  simp only [maximumf_apply, addf_apply, mulf_apply, subf_apply, broadcast_apply, spread_apply, castCol_apply]
  show max _ (Ideal.ofBits .f32 0x00000000#32) = _
  rw [Ideal.ofBits_zero_f32]

/-! ## The two affine layers -/

/-- A [512,K] matrix against [256,K] weights, contracted on the last axis of both, into zeros, plus the bias row, seen as
    [32,16,256]: at (b, j, c) the sum over the contracted coordinate of row 16·b + j against weight row c, plus the bias at c. -/
theorem affine_apply {K : Nat} {φ₁ φ₂ : FTy}
    (w : DotDims.WF ⟨2, ![512, K]⟩ ⟨2, ![256, K]⟩ ⟨2, ![512, 256]⟩ [1] [1] [0] [0] [] [])
    (A : FVec Ideal ⟨2, ![512, K]⟩ φ₁) (W : FVec Ideal ⟨2, ![256, K]⟩ φ₂) (bias : FVec Ideal S256 .f32)
    (h1 : S256.ShapeCasts S1x256) (h2 : S1x256.Broadcasts S512x256) (h3 : S512x256.ShapeCasts S32x16x256)
    (b : Fin 32) (j : Fin 16) (c : Fin 256) :
    shapeCast S32x16x256 (addf (matmul (⟨[1], [1], [0], [0], [], [], w⟩ : DotDims _ _ _) none A W
        (constant (F := Ideal) S512x256 .f32 0x00000000#32)) (broadcastTo S512x256 (shapeCast S1x256 bias h1) h2)) h3 (ix3 b j c)
      = (∑ k : Fin K, A (ix2 (row b j) k) * W (ix2 c k)) + bias (ix1 c) :=
  (unrow_apply _ h3 b j c).trans
    (congr (congrArg HAdd.hAdd (matmulT_apply w none A W (row b j) c)) (biasRow_apply bias h1 h2 (row b j) c))

/-- The batch [32,N] and the mask block [16,N], each spread over [32,16,N] and multiplied, seen as [512,N]: row 16·b + j
    at n is the batch at (b, n) times the mask at (j, n). -/
theorem maskedRow_apply (x0 : FVec Ideal S32x10000 .bf16) (x1 : FVec Ideal S16x10000 .bf16)
    (h1 : S32x10000.ShapeCasts S32x10000) (h2 : S32x10000.ShapeCasts S32x1x10000) (h3 : S32x1x10000.Broadcasts S32x16x10000)
    (h4 : S16x10000.ShapeCasts S16x10000) (h5 : S16x10000.ShapeCasts S1x16x10000) (h6 : S1x16x10000.Broadcasts S32x16x10000)
    (h7 : S32x16x10000.ShapeCasts S512x10000) (b : Fin 32) (j : Fin 16) (n : Fin 10000) :
    shapeCast S512x10000 (mulf (broadcastTo S32x16x10000 (shapeCast S32x1x10000 (shapeCast S32x10000 x0 h1) h2) h3)
        (broadcastTo S32x16x10000 (shapeCast S1x16x10000 (shapeCast S16x10000 x1 h4) h5) h6)) h7 (ix2 (row b j) n)
      = x0 (ix2 b n) * x1 (ix2 j n) := by
  refine (rowOfN_apply _ h7 b j n).trans ?_
  rw [shapeCast_self, shapeCast_self]
  refine congr (congrArg HMul.hMul ?_) ?_
  · refine (broadcastTo_apply _ h3 (ix3 b j n) (ix3 b (0 : Fin 1) n) fun a =>
      match a with
      | ⟨0, _⟩ => by show b.val = (if (32 : Nat) = 1 then 0 else b.val); rw [if_neg (by decide)]
      | ⟨1, _⟩ => by show 0 = (if (1 : Nat) = 1 then 0 else j.val); rw [if_pos rfl]
      | ⟨2, _⟩ => by show n.val = (if (10000 : Nat) = 1 then 0 else n.val); rw [if_neg (by decide)]).trans ?_
    exact shapeCast_apply x0 h2 _ _ (by
      rw [Shape.rowMajor_val_two, Shape.rowMajor_val_three]
      show b.val * 10000 + n.val = (b.val * 1 + 0) * 10000 + n.val
      omega)
  · refine (broadcastTo_apply _ h6 (ix3 b j n) (ix3 (0 : Fin 1) j n) fun a =>
      match a with
      | ⟨0, _⟩ => by show 0 = (if (1 : Nat) = 1 then 0 else b.val); rw [if_pos rfl]
      | ⟨1, _⟩ => by show j.val = (if (16 : Nat) = 1 then 0 else j.val); rw [if_neg (by decide)]
      | ⟨2, _⟩ => by show n.val = (if (10000 : Nat) = 1 then 0 else n.val); rw [if_neg (by decide)]).trans ?_
    exact shapeCast_ab_1ab_apply x1 h5 (0 : Fin 1) j n

/-- The first layer's payload at (b, j, c) is group j's first layer at (b, c). -/
theorem pay2_apply (x0 : Vec Ideal S32x10000 .bf16) (x1 : Vec Ideal S16x10000 .bf16) (x2 : Vec Ideal S256x10000 .bf16)
    (x3 : Vec Ideal S256 .f32) (b : Fin 32) (j : Fin 16) (c : Fin 256) :
    k0_pay2 (F := Ideal) x0 x1 x2 x3 (ix3 b j c) = lin1 (at2 x0) (at2 x1 j) (at2 x2) (at1 x3) b c := by
  unfold k0_pay2
  refine (affine_apply _ _ _ x3 _ _ _ b j c).trans ?_
  unfold lin1
  refine congrArg (fun t : EReal => t + x3 (ix1 c)) (Finset.sum_congr rfl fun n _ => ?_)
  exact congr (congrArg HMul.hMul (maskedRow_apply x0 x1 _ _ _ _ _ _ _ b j n)) (congrFun (shapeCast_self x2 _) (ix2 c n))

/-- The second layer's payload at (b, j, z): the normalised, clipped first slab against the second weights, plus the bias. -/
theorem pay8_apply (v17 : FVec Ideal S32x16x256 .f32) (v19 v21 : FVec Ideal S16x1 .f32) (v38 v39 : FVec Ideal S1x16x1 .f32)
    (v54 : Vec Ideal S256x256 .bf16) (v57 : Vec Ideal S256 .f32) (b : Fin 32) (j : Fin 16) (z : Fin 256) :
    k0_pay8 (F := Ideal) v17 v19 v21 v38 v39 v54 v57 (ix3 b j z)
      = (∑ c : Fin 256, normClip v17 v19 v21 v38 v39 (ix3 b j c) * v54 (ix2 z c)) + v57 (ix1 z) := by
  unfold k0_pay8
  refine (affine_apply _ _ _ v57 _ _ _ b j z).trans ?_
  refine congrArg (fun t : EReal => t + v57 (ix1 z)) (Finset.sum_congr rfl fun c _ => ?_)
  exact congr (congrArg HMul.hMul (rowOf_apply (normClip v17 v19 v21 v38 v39) _ b j c))
    (congrFun (shapeCast_self v54 _) (ix2 z c))

/-! ## A slab normalised by its own statistics, and the body -/

/-- A slab normalised by ITS OWN mean column (as [1,16,1]) and reciprocal deviation, scaled, shifted and clipped: at
    (b, j, c) the activation of group j's slab with group j's scale and shift. -/
theorem actSlab_apply (H : FVec Ideal S32x16x256 .f32) (γ β : FVec Ideal S16x1 .f32) (h : S16x1.ShapeCasts S1x16x1)
    (b : Fin 32) (j : Fin 16) (c : Fin 256) :
    normClip H γ β (shapeCast S1x16x1 (meanCol H) h) (rstdCol H) (ix3 b j c)
      = actK Cert.Lits.s Cert.Lits.eps (γ (ix2 j (0 : Fin 1))) (β (ix2 j (0 : Fin 1))) (fun b c => H (ix3 b j c)) b c := by
  rw [normClip_apply, castCol_apply, meanCol_apply, rstdCol_apply]
  rfl

/-- The first slab, normalised and clipped as the body does, at (b, j, c): group j's first activation at (b, c). -/
theorem act1_apply (x0 : Vec Ideal S32x10000 .bf16) (x1 : Vec Ideal S16x10000 .bf16) (x2 : Vec Ideal S256x10000 .bf16)
    (x3 : Vec Ideal S256 .f32) (x4 x5 : Vec Ideal S16x1 .f32) (b : Fin 32) (j : Fin 16) (c : Fin 256) :
    normClip (k0_pay2 (F := Ideal) x0 x1 x2 x3) (k0_pay3 x4) (k0_pay4 x5) (k0_pay6 x0 x1 x2 x3) (k0_pay7 x0 x1 x2 x3) (ix3 b j c)
      = actK Cert.Lits.s Cert.Lits.eps (x4 (ix2 j (0 : Fin 1))) (x5 (ix2 j (0 : Fin 1)))
          (lin1 (at2 x0) (at2 x1 j) (at2 x2) (at1 x3)) b c := by
  have e3 : k0_pay3 (F := Ideal) x4 = x4 := shapeCast_self x4 _
  have e4 : k0_pay4 (F := Ideal) x5 = x5 := shapeCast_self x5 _
  rw [e3, e4]
  refine (actSlab_apply (k0_pay2 (F := Ideal) x0 x1 x2 x3) x4 x5 shapeCasts_S16x1_S1x16x1 b j c).trans ?_
  exact congrArg (fun h : Fin 32 → Fin 256 → EReal =>
      actK Cert.Lits.s Cert.Lits.eps (x4 (ix2 j (0 : Fin 1))) (x5 (ix2 j (0 : Fin 1))) h b c)
    (funext fun b' => funext fun c' => pay2_apply x0 x1 x2 x3 b' j c')

/-- The second slab at (b, j, z) is group j's second layer of its first activation. -/
theorem slab2_apply (x0 : Vec Ideal S32x10000 .bf16) (x1 : Vec Ideal S16x10000 .bf16) (x2 : Vec Ideal S256x10000 .bf16)
    (x3 : Vec Ideal S256 .f32) (x4 x5 : Vec Ideal S16x1 .f32) (x6 : Vec Ideal S256x256 .bf16) (x7 : Vec Ideal S256 .f32)
    (b : Fin 32) (j : Fin 16) (z : Fin 256) :
    k0_pay8 (F := Ideal) (k0_pay2 x0 x1 x2 x3) (k0_pay3 x4) (k0_pay4 x5) (k0_pay6 x0 x1 x2 x3) (k0_pay7 x0 x1 x2 x3) x6 x7 (ix3 b j z)
      = lin2 (actK Cert.Lits.s Cert.Lits.eps (x4 (ix2 j (0 : Fin 1))) (x5 (ix2 j (0 : Fin 1)))
          (lin1 (at2 x0) (at2 x1 j) (at2 x2) (at1 x3))) (at2 x6) (at1 x7) b z := by
  refine (pay8_apply _ _ _ _ _ x6 x7 b j z).trans ?_
  unfold lin2
  exact congrArg (fun t : EReal => t + x7 (ix1 z)) (Finset.sum_congr rfl fun c _ =>
    congrArg (fun t : EReal => t * x6 (ix2 z c)) (act1_apply x0 x1 x2 x3 x4 x5 b j c))

/-- The body's payload at (b, j, z) is group j's network at (b, z). -/
theorem body_apply (x0 : Vec Ideal S32x10000 .bf16) (x1 : Vec Ideal S16x10000 .bf16) (x2 : Vec Ideal S256x10000 .bf16)
    (x3 : Vec Ideal S256 .f32) (x4 x5 : Vec Ideal S16x1 .f32) (x6 : Vec Ideal S256x256 .bf16) (x7 : Vec Ideal S256 .f32)
    (x8 x9 : Vec Ideal S16x1 .f32) (b : Fin 32) (j : Fin 16) (z : Fin 256) :
    k0_pay1 (F := Ideal)
        (k0_pay8 (k0_pay2 x0 x1 x2 x3) (k0_pay3 x4) (k0_pay4 x5) (k0_pay6 x0 x1 x2 x3) (k0_pay7 x0 x1 x2 x3) x6 x7)
        (k0_pay9 x8) (k0_pay10 x9)
        (k0_pay12 (k0_pay2 x0 x1 x2 x3) (k0_pay3 x4) (k0_pay4 x5) (k0_pay6 x0 x1 x2 x3) (k0_pay7 x0 x1 x2 x3) x6 x7)
        (k0_pay13 (k0_pay2 x0 x1 x2 x3) (k0_pay3 x4) (k0_pay4 x5) (k0_pay6 x0 x1 x2 x3) (k0_pay7 x0 x1 x2 x3) x6 x7) (ix3 b j z)
      = netK Cert.Lits.s Cert.Lits.eps (at2 x0) (at2 x1 j) (at2 x2) (at1 x3) (x4 (ix2 j (0 : Fin 1))) (x5 (ix2 j (0 : Fin 1)))
          (at2 x6) (at1 x7) (x8 (ix2 j (0 : Fin 1))) (x9 (ix2 j (0 : Fin 1))) b z := by
  have e9 : k0_pay9 (F := Ideal) x8 = x8 := shapeCast_self x8 _
  have e10 : k0_pay10 (F := Ideal) x9 = x9 := shapeCast_self x9 _
  rw [e9, e10]
  refine (actSlab_apply
    (k0_pay8 (F := Ideal) (k0_pay2 x0 x1 x2 x3) (k0_pay3 x4) (k0_pay4 x5) (k0_pay6 x0 x1 x2 x3) (k0_pay7 x0 x1 x2 x3) x6 x7)
    x8 x9 shapeCasts_S16x1_S1x16x1 b j z).trans ?_
  unfold netK
  exact congrArg (fun h : Fin 32 → Fin 256 → EReal =>
      actK Cert.Lits.s Cert.Lits.eps (x8 (ix2 j (0 : Fin 1))) (x9 (ix2 j (0 : Fin 1))) h b z)
    (funext fun b' => funext fun z' => slab2_apply x0 x1 x2 x3 x4 x5 x6 x7 b' j z')

theorem zeros1 : (![0] : Fin 1 → Nat) = fun _ => 0 := funext fun a => match a with | ⟨0, _⟩ => rfl
theorem zeros2 : (![0, 0] : Fin 2 → Nat) = fun _ => 0 := funext fun a => match a with | ⟨0, _⟩ => rfl | ⟨1, _⟩ => rfl
theorem zeros3 : (![0, 0, 0] : Fin 3 → Nat) = fun _ => 0 :=
  funext fun a => match a with | ⟨0, _⟩ => rfl | ⟨1, _⟩ => rfl | ⟨2, _⟩ => rfl

/-- The output block after the body, at `(b, j, z)`, is group `j`'s network of the input blocks. -/
theorem out_eq (x0 : Vec Ideal S32x10000 .bf16) (x1 : Vec Ideal S16x10000 .bf16) (x2 : Vec Ideal S256x10000 .bf16)
    (x3 : Vec Ideal S256 .f32) (x4 x5 : Vec Ideal S16x1 .f32) (x6 : Vec Ideal S256x256 .bf16) (x7 : Vec Ideal S256 .f32)
    (x8 x9 : Vec Ideal S16x1 .f32) (b : Fin 32) (j : Fin 16) (z : Fin 256) :
    out0_10 (F := Ideal) x0 x1 x2 x3 x4 x5 x6 x7 x8 x9 (ix3 b j z)
      = netK Cert.Lits.s Cert.Lits.eps (at2 x0) (at2 x1 j) (at2 x2) (at1 x3) (x4 (ix2 j 0)) (x5 (ix2 j 0))
          (at2 x6) (at1 x7) (x8 (ix2 j 0)) (x9 (ix2 j 0)) b z := by
  unfold out0_10
  rw [View.canon_unit_zero zeros3]
  simp only [View.ld_unit_zero (S := S32x10000) zeros2, View.ld_unit_zero (S := S16x10000) zeros2,
    View.ld_unit_zero (S := S256x10000) zeros2, View.ld_unit_zero (S := S256) zeros1, View.ld_unit_zero (S := S16x1) zeros2,
    View.ld_unit_zero (S := S256x256) zeros2]
  exact body_apply x0 x1 x2 x3 x4 x5 x6 x7 x8 x9 b j z

end Cert.KernelIdeal.Body

end
-- ==== Proof.KernelPoint.lean ====
/- One grid point against the whole arrays. Point `t` stages the whole batch, weights and biases, rows `16 t … 16 t + 15` of the
   mask and the same entries of the four scale / shift columns (the columns are the `[256]` arguments reshaped to `[256, 1]`,
   the four matrices the arguments narrowed to bf16, which at the extended reals is the identity). So what the point leaves at
   block index `(b, j, z)` is the result array `outK` of the ARGUMENTS at `(b, 16 t + j, z)`. -/
import proofs.«164206_j25898652795510_1_alg».proof.Proof.Gen.KernelIdeal.Frame
import proofs.«164206_j25898652795510_1_alg».proof.Proof.Gen.KernelIdeal.Value
import proofs.«164206_j25898652795510_1_alg».proof.Proof.KernelBody
import Idealize.ShloMosaic.Lib.StableHlo.Run

noncomputable section

namespace Cert.KernelIdeal.Point

open Cert.KernelIdeal Cert.KernelIdeal.Gen Idealize.ShloMosaic Idealize.ShloMosaic.TcCoe Idealize.ShloMosaic.ValueIdx Idealize.SL.Sem
open Cert.LibMaskedGroupNet
open scoped BigOperators

variable (m : (ℓ : Loc nD τ sig) → Buf (Elt Ideal) ℓ)

/-! ## The arrays the region finds, as terms of the arguments

Four of the staged arrays are arguments narrowed to bf16, which over the extended reals changes nothing; four are `[256]`
arguments laid out as `[256, 1]` columns; the two bias vectors are staged as launched. -/

/-- The batch array the region finds is argument 0. -/
theorem V_v0 (c : Dev nD) : (V m c main_v0 : S32x10000.Idx → EReal) = m ((c.tc : Thread nD τ).loc main_arg0) := by
  dsimp only [Gen.V, Gen.hostOps0]; after_results; rfl
/-- The mask array the region finds is argument 1. -/
theorem V_v1 (c : Dev nD) : (V m c main_v1 : S256x10000.Idx → EReal) = m ((c.tc : Thread nD τ).loc main_arg1) := by
  dsimp only [Gen.V, Gen.hostOps0]; after_results; rfl
/-- The first layer's weights the region finds are argument 2. -/
theorem V_v2 (c : Dev nD) : (V m c main_v2 : S256x10000.Idx → EReal) = m ((c.tc : Thread nD τ).loc main_arg2) := by
  dsimp only [Gen.V, Gen.hostOps0]; after_results; rfl
/-- The second layer's weights the region finds are argument 6. -/
theorem V_v3 (c : Dev nD) : (V m c main_v3 : S256x256.Idx → EReal) = m ((c.tc : Thread nD τ).loc main_arg6) := by
  dsimp only [Gen.V, Gen.hostOps0]; after_results; rfl
/-- The first scale column is argument 4 laid out as `[256, 1]`. -/
theorem V_v4 (c : Dev nD) : (V m c main_v4 : S256x1.Idx → EReal) = shapeCast S256x1 (m ((c.tc : Thread nD τ).loc main_arg4)) shapeCasts_S256_S256x1 := by
  dsimp only [Gen.V, Gen.hostOps0]; after_results; rfl
/-- The first shift column is argument 5 laid out as `[256, 1]`. -/
theorem V_v5 (c : Dev nD) : (V m c main_v5 : S256x1.Idx → EReal) = shapeCast S256x1 (m ((c.tc : Thread nD τ).loc main_arg5)) shapeCasts_S256_S256x1 := by
  dsimp only [Gen.V, Gen.hostOps0]; after_results; rfl
/-- The second scale column is argument 8 laid out as `[256, 1]`. -/
theorem V_v6 (c : Dev nD) : (V m c main_v6 : S256x1.Idx → EReal) = shapeCast S256x1 (m ((c.tc : Thread nD τ).loc main_arg8)) shapeCasts_S256_S256x1 := by
  dsimp only [Gen.V, Gen.hostOps0]; after_results; rfl
/-- The second shift column is argument 9 laid out as `[256, 1]`. -/
theorem V_v7 (c : Dev nD) : (V m c main_v7 : S256x1.Idx → EReal) = shapeCast S256x1 (m ((c.tc : Thread nD τ).loc main_arg9)) shapeCasts_S256_S256x1 := by
  dsimp only [Gen.V, Gen.hostOps0]; after_results; rfl

/-- A `[256, 1]` column made from a `[256]` vector holds, at row `r`, the vector's entry `r`: both sit at row-major
    position `r`. -/
theorem col_apply (x : S256.Idx → EReal) (r : Fin 256) :
    shapeCast S256x1 x shapeCasts_S256_S256x1 (ix2 r (0 : Fin 1)) = x (ix1 r) :=
  shapeCast_apply x shapeCasts_S256_S256x1 (ix2 r (0 : Fin 1)) (ix1 r) (by
    rw [Shape.rowMajor_val_two, Shape.rowMajor_val_one]; show r.val = r.val * 1 + 0; omega)

/-! ## The index maps over the grid -/

/-- The batch, both weight matrices and both bias vectors are staged whole: their block index is zero on every axis at
    every point. -/
theorem idx_whole : ∀ t : Fin cfg0.N,
    (win0_0.index t (0 : Fin 2) = 0 ∧ win0_0.index t (1 : Fin 2) = 0)
    ∧ (win0_2.index t (0 : Fin 2) = 0 ∧ win0_2.index t (1 : Fin 2) = 0)
    ∧ (win0_6.index t (0 : Fin 2) = 0 ∧ win0_6.index t (1 : Fin 2) = 0)
    ∧ win0_3.index t (0 : Fin 1) = 0 ∧ win0_7.index t (0 : Fin 1) = 0 :=
  (by decide +kernel : ∀ t : Fin grid0.N, _)

/-- The mask and the four columns are staged in blocks of 16 rows: at point `t` the block index is `t` along the rows
    and zero along the other axis. -/
theorem idx_rows : ∀ t : Fin cfg0.N,
    (win0_1.index t (0 : Fin 2) = t.val ∧ win0_1.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-! ## Where a block's entry sits in its array

On each axis an entry of the block at point `t` sits at the block index times the block's extent plus its own coordinate:
for a window staged whole that is the coordinate itself, for a window of 16 rows it is row `16 t + j`. -/

theorem emb0 (t : Fin cfg0.N) (b : Fin 32) (n : Fin 10000) :
    ((cfg0.win 0).blk t).view.emb (ix2 b n) = (ix2 b n : S32x10000.Idx) := by
  obtain ⟨⟨e0, e1⟩, -⟩ := idx_whole t
  funext a; apply Fin.ext
  match a with
  | ⟨0, _⟩ => show win0_0.index t (0 : Fin 2) * 32 + 1 * b.val = b.val; omega
  | ⟨1, _⟩ => show win0_0.index t (1 : Fin 2) * 10000 + 1 * n.val = n.val; omega

theorem emb1 (t : Fin cfg0.N) (j : Fin 16) (n : Fin 10000) (hg : 16 * t.val + j.val < 256) :
    ((cfg0.win 1).blk t).view.emb (ix2 j n) = (ix2 (⟨16 * t.val + j.val, hg⟩ : Fin 256) n : S256x10000.Idx) := by
  obtain ⟨⟨e0, e1⟩, -⟩ := idx_rows t
  funext a; apply Fin.ext
  match a with
  | ⟨0, _⟩ => show win0_1.index t (0 : Fin 2) * 16 + 1 * j.val = 16 * t.val + j.val; omega
  | ⟨1, _⟩ => show win0_1.index t (1 : Fin 2) * 10000 + 1 * n.val = n.val; omega

theorem emb2 (t : Fin cfg0.N) (h : Fin 256) (n : Fin 10000) :
    ((cfg0.win 2).blk t).view.emb (ix2 h n) = (ix2 h n : S256x10000.Idx) := by
  obtain ⟨-, ⟨e0, e1⟩, -⟩ := idx_whole t
  funext a; apply Fin.ext
  match a with
  | ⟨0, _⟩ => show win0_2.index t (0 : Fin 2) * 256 + 1 * h.val = h.val; omega
  | ⟨1, _⟩ => show win0_2.index t (1 : Fin 2) * 10000 + 1 * n.val = n.val; omega

theorem emb3 (t : Fin cfg0.N) (h : Fin 256) :
    ((cfg0.win 3).blk t).view.emb (ix1 h) = (ix1 h : S256.Idx) := by
  obtain ⟨-, -, -, e0, -⟩ := idx_whole t
  funext a; apply Fin.ext
  match a with
  | ⟨0, _⟩ => show win0_3.index t (0 : Fin 1) * 256 + 1 * h.val = h.val; omega

theorem emb4 (t : Fin cfg0.N) (j : Fin 16) (hg : 16 * t.val + j.val < 256) :
    ((cfg0.win 4).blk t).view.emb (ix2 j (0 : Fin 1)) = (ix2 (⟨16 * t.val + j.val, hg⟩ : Fin 256) (0 : Fin 1) : S256x1.Idx) := by
  obtain ⟨-, ⟨e0, e1⟩, -⟩ := idx_rows t
  funext a; apply Fin.ext
  match a with
  | ⟨0, _⟩ => show win0_4.index t (0 : Fin 2) * 16 + 1 * j.val = 16 * t.val + j.val; omega
  | ⟨1, _⟩ => show win0_4.index t (1 : Fin 2) * 1 + 1 * 0 = 0; omega

theorem emb5 (t : Fin cfg0.N) (j : Fin 16) (hg : 16 * t.val + j.val < 256) :
    ((cfg0.win 5).blk t).view.emb (ix2 j (0 : Fin 1)) = (ix2 (⟨16 * t.val + j.val, hg⟩ : Fin 256) (0 : Fin 1) : S256x1.Idx) := by
  obtain ⟨-, -, ⟨e0, e1⟩, -⟩ := idx_rows t
  funext a; apply Fin.ext
  match a with
  | ⟨0, _⟩ => show win0_5.index t (0 : Fin 2) * 16 + 1 * j.val = 16 * t.val + j.val; omega
  | ⟨1, _⟩ => show win0_5.index t (1 : Fin 2) * 1 + 1 * 0 = 0; omega

theorem emb6 (t : Fin cfg0.N) (z : Fin 256) (h : Fin 256) :
    ((cfg0.win 6).blk t).view.emb (ix2 z h) = (ix2 z h : S256x256.Idx) := by
  obtain ⟨-, -, ⟨e0, e1⟩, -⟩ := idx_whole t
  funext a; apply Fin.ext
  match a with
  | ⟨0, _⟩ => show win0_6.index t (0 : Fin 2) * 256 + 1 * z.val = z.val; omega
  | ⟨1, _⟩ => show win0_6.index t (1 : Fin 2) * 256 + 1 * h.val = h.val; omega

theorem emb7 (t : Fin cfg0.N) (z : Fin 256) :
    ((cfg0.win 7).blk t).view.emb (ix1 z) = (ix1 z : S256.Idx) := by
  obtain ⟨-, -, -, -, e0⟩ := idx_whole t
  funext a; apply Fin.ext
  match a with
  | ⟨0, _⟩ => show win0_7.index t (0 : Fin 1) * 256 + 1 * z.val = z.val; omega

theorem emb8 (t : Fin cfg0.N) (j : Fin 16) (hg : 16 * t.val + j.val < 256) :
    ((cfg0.win 8).blk t).view.emb (ix2 j (0 : Fin 1)) = (ix2 (⟨16 * t.val + j.val, hg⟩ : Fin 256) (0 : Fin 1) : S256x1.Idx) := by
  obtain ⟨-, -, -, ⟨e0, e1⟩, -⟩ := idx_rows t
  funext a; apply Fin.ext
  match a with
  | ⟨0, _⟩ => show win0_8.index t (0 : Fin 2) * 16 + 1 * j.val = 16 * t.val + j.val; omega
  | ⟨1, _⟩ => show win0_8.index t (1 : Fin 2) * 1 + 1 * 0 = 0; omega

theorem emb9 (t : Fin cfg0.N) (j : Fin 16) (hg : 16 * t.val + j.val < 256) :
    ((cfg0.win 9).blk t).view.emb (ix2 j (0 : Fin 1)) = (ix2 (⟨16 * t.val + j.val, hg⟩ : Fin 256) (0 : Fin 1) : S256x1.Idx) := by
  obtain ⟨-, -, -, -, ⟨e0, e1⟩⟩ := idx_rows t
  funext a; apply Fin.ext
  match a with
  | ⟨0, _⟩ => show win0_9.index t (0 : Fin 2) * 16 + 1 * j.val = 16 * t.val + j.val; omega
  | ⟨1, _⟩ => show win0_9.index t (1 : Fin 2) * 1 + 1 * 0 = 0; omega

/-! ## Each staged block, entry by entry, as the arguments -/

/-- The batch block is the batch. -/
theorem blk0 (c : Dev nD) (t : Fin cfg0.N) (b : Fin 32) (n : Fin 10000) :
    iblk m c 0 t (ix2 b n) = m ((c.tc : Thread nD τ).loc main_arg0) (ix2 b n) := by
  unfold iblk
  rw [View.read_apply]
  show V m c main_v0 (((cfg0.win 0).blk t).view.emb (ix2 b n)) = _
  rw [emb0, V_v0]

/-- Row `j` of the mask block is row `16 t + j` of the mask. -/
theorem blk1 (c : Dev nD) (t : Fin cfg0.N) (j : Fin 16) (n : Fin 10000) (hg : 16 * t.val + j.val < 256) :
    iblk m c 1 t (ix2 j n) = m ((c.tc : Thread nD τ).loc main_arg1) (ix2 (⟨16 * t.val + j.val, hg⟩ : Fin 256) n) := by
  unfold iblk
  rw [View.read_apply]
  show V m c main_v1 (((cfg0.win 1).blk t).view.emb (ix2 j n)) = _
  rw [emb1 t j n hg, V_v1]

/-- The first layer's weights block is the weights. -/
theorem blk2 (c : Dev nD) (t : Fin cfg0.N) (h : Fin 256) (n : Fin 10000) :
    iblk m c 2 t (ix2 h n) = m ((c.tc : Thread nD τ).loc main_arg2) (ix2 h n) := by
  unfold iblk
  rw [View.read_apply]
  show V m c main_v2 (((cfg0.win 2).blk t).view.emb (ix2 h n)) = _
  rw [emb2, V_v2]

/-- The first layer's bias block is the bias. -/
theorem blk3 (c : Dev nD) (t : Fin cfg0.N) (h : Fin 256) :
    iblk m c 3 t (ix1 h) = m ((c.tc : Thread nD τ).loc main_arg3) (ix1 h) := by
  unfold iblk
  rw [View.read_apply]
  show V m c main_arg3 (((cfg0.win 3).blk t).view.emb (ix1 h)) = _
  rw [emb3, V_main_arg3]

/-- Entry `j` of the first scale block is entry `16 t + j` of argument 4. -/
theorem blk4 (c : Dev nD) (t : Fin cfg0.N) (j : Fin 16) (hg : 16 * t.val + j.val < 256) :
    iblk m c 4 t (ix2 j (0 : Fin 1)) = m ((c.tc : Thread nD τ).loc main_arg4) (ix1 (⟨16 * t.val + j.val, hg⟩ : Fin 256)) := by
  unfold iblk
  rw [View.read_apply]
  show V m c main_v4 (((cfg0.win 4).blk t).view.emb (ix2 j (0 : Fin 1))) = _
  rw [emb4 t j hg, V_v4, col_apply]

/-- Entry `j` of the first shift block is entry `16 t + j` of argument 5. -/
theorem blk5 (c : Dev nD) (t : Fin cfg0.N) (j : Fin 16) (hg : 16 * t.val + j.val < 256) :
    iblk m c 5 t (ix2 j (0 : Fin 1)) = m ((c.tc : Thread nD τ).loc main_arg5) (ix1 (⟨16 * t.val + j.val, hg⟩ : Fin 256)) := by
  unfold iblk
  rw [View.read_apply]
  show V m c main_v5 (((cfg0.win 5).blk t).view.emb (ix2 j (0 : Fin 1))) = _
  rw [emb5 t j hg, V_v5, col_apply]

/-- The second layer's weights block is the weights. -/
theorem blk6 (c : Dev nD) (t : Fin cfg0.N) (z : Fin 256) (h : Fin 256) :
    iblk m c 6 t (ix2 z h) = m ((c.tc : Thread nD τ).loc main_arg6) (ix2 z h) := by
  unfold iblk
  rw [View.read_apply]
  show V m c main_v3 (((cfg0.win 6).blk t).view.emb (ix2 z h)) = _
  rw [emb6, V_v3]

/-- The second layer's bias block is the bias. -/
theorem blk7 (c : Dev nD) (t : Fin cfg0.N) (z : Fin 256) :
    iblk m c 7 t (ix1 z) = m ((c.tc : Thread nD τ).loc main_arg7) (ix1 z) := by
  unfold iblk
  rw [View.read_apply]
  show V m c main_arg7 (((cfg0.win 7).blk t).view.emb (ix1 z)) = _
  rw [emb7, V_main_arg7]

/-- Entry `j` of the second scale block is entry `16 t + j` of argument 8. -/
theorem blk8 (c : Dev nD) (t : Fin cfg0.N) (j : Fin 16) (hg : 16 * t.val + j.val < 256) :
    iblk m c 8 t (ix2 j (0 : Fin 1)) = m ((c.tc : Thread nD τ).loc main_arg8) (ix1 (⟨16 * t.val + j.val, hg⟩ : Fin 256)) := by
  unfold iblk
  rw [View.read_apply]
  show V m c main_v6 (((cfg0.win 8).blk t).view.emb (ix2 j (0 : Fin 1))) = _
  rw [emb8 t j hg, V_v6, col_apply]

/-- Entry `j` of the second shift block is entry `16 t + j` of argument 9. -/
theorem blk9 (c : Dev nD) (t : Fin cfg0.N) (j : Fin 16) (hg : 16 * t.val + j.val < 256) :
    iblk m c 9 t (ix2 j (0 : Fin 1)) = m ((c.tc : Thread nD τ).loc main_arg9) (ix1 (⟨16 * t.val + j.val, hg⟩ : Fin 256)) := by
  unfold iblk
  rw [View.read_apply]
  show V m c main_v7 (((cfg0.win 9).blk t).view.emb (ix2 j (0 : Fin 1))) = _
  rw [emb9 t j hg, V_v7, col_apply]

/-- What point `t` leaves at block index `(b, j, z)` is `outK` of the arguments at `(b, 16 t + j, z)`. -/
theorem point_eq (c : Dev nD) (t : Fin cfg0.N) (b : Fin 32) (j : Fin 16) (z : Fin 256) (hg : 16 * t.val + j.val < 256) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 b j z)
      = outK Cert.Lits.s Cert.Lits.eps (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix3 b ⟨16 * t.val + j.val, hg⟩ z) := by
  -- the body's store is group `j`'s network of the blocks; each block, entry by entry, is the arguments' at group `16 t + j`
  refine (Body.out_eq (iblk m c 0 t) (iblk m c 1 t) (iblk m c 2 t) (iblk m c 3 t) (iblk m c 4 t) (iblk m c 5 t) (iblk m c 6 t) (iblk m c 7 t) (iblk m c 8 t) (iblk m c 9 t) b j z).trans ?_
  have h0 : at2 (iblk m c 0 t : Vec Ideal S32x10000 .bf16) = at2 (m ((c.tc : Thread nD τ).loc main_arg0)) :=
    funext fun p => funext fun q => blk0 m c t p q
  have h1 : at2 (iblk m c 1 t : Vec Ideal S16x10000 .bf16) j = at2 (m ((c.tc : Thread nD τ).loc main_arg1)) (⟨16 * t.val + j.val, hg⟩ : Fin 256) :=
    funext fun q => blk1 m c t j q hg
  have h2 : at2 (iblk m c 2 t : Vec Ideal S256x10000 .bf16) = at2 (m ((c.tc : Thread nD τ).loc main_arg2)) :=
    funext fun p => funext fun q => blk2 m c t p q
  have h3 : at1 (iblk m c 3 t : Vec Ideal S256 .f32) = at1 (m ((c.tc : Thread nD τ).loc main_arg3)) :=
    funext fun p => blk3 m c t p
  have h6 : at2 (iblk m c 6 t : Vec Ideal S256x256 .bf16) = at2 (m ((c.tc : Thread nD τ).loc main_arg6)) :=
    funext fun p => funext fun q => blk6 m c t p q
  have h7 : at1 (iblk m c 7 t : Vec Ideal S256 .f32) = at1 (m ((c.tc : Thread nD τ).loc main_arg7)) :=
    funext fun p => blk7 m c t p
  rw [h0, h1, h2, h3, h6, h7, blk4 m c t j hg, blk5 m c t j hg, blk8 m c t j hg, blk9 m c t j hg]
  rfl

end Cert.KernelIdeal.Point

end
-- ==== Proof.KernelValue.lean ====
/- The kernel's run with its result array named. The sixteen grid points write sixteen disjoint blocks `[32, 16, 256]` that
   tile the middle axis of the result `[32, 256, 256]`; point `t` writes the restriction of `outK` of the arguments to its block
   (`Point.point_eq`), so after the run the whole array is `outK` of the arguments. -/
import proofs.«164206_j25898652795510_1_alg».proof.Proof.Gen.KernelIdeal.Frame
import proofs.«164206_j25898652795510_1_alg».proof.Proof.Gen.KernelIdeal.Value
import proofs.«164206_j25898652795510_1_alg».proof.Proof.KernelPoint

noncomputable section

namespace Cert.KernelIdeal.KValue

open Cert.KernelIdeal Cert.KernelIdeal.Gen Idealize.ShloMosaic Idealize.ShloMosaic.TcCoe Idealize.ShloMosaic.ValueIdx Idealize.SL.Sem
open Cert.LibMaskedGroupNet
open Idealize.ShloMosaic.Pipeline (Dat)

variable (m : (ℓ : Loc nD τ sig) → Buf (Elt Ideal) ℓ) (ρ : Dev nD → PrngReg)

/-- The whole result array `[32, 256, 256]` as one function of the ten arguments. -/
abbrev resArr (c : Dev nD) : Buf (Elt Ideal) ((c.tc : Thread nD τ).loc main_v8) :=
  outK Cert.Lits.s Cert.Lits.eps (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The output's index map, decided over the sixteen grid points: point `t` owns block `(0, t, 0)`. -/
theorem tile_index : ∀ t : Fin cfg0.N, win0_10.index t (0 : Fin 3) = 0 ∧ win0_10.index t (1 : Fin 3) = t.val ∧ win0_10.index t (2 : Fin 3) = 0 :=
  (by decide +kernel : ∀ t : Fin grid0.N, win0_10.index t (0 : Fin 3) = 0 ∧ win0_10.index t (1 : Fin 3) = t.val ∧ win0_10.index t (2 : Fin 3) = 0)

/-- A grid point is below sixteen. -/
theorem point_lt (t : Fin cfg0.N) : t.val < 16 := lt_of_lt_of_eq t.isLt N_0

/-- What point `t` writes back is its group tile `[32, 16, 256]` of the whole result array: the element at block index
    `(b, j, z)` sits in the array at `(b, 16 t + j, z)`. -/
theorem tile_eq (c : Dev nD) (t : Fin cfg0.N) :
    (dats m 0 c).flushed 10 t = ((cfg0.win 10).blk t).view.read (Elt Ideal) (resArr m c) := by
  rw [Value.flushed10]
  funext y
  obtain ⟨b, j, z, rfl⟩ : ∃ (b : Fin 32) (j : Fin 16) (z : Fin 256), y = ix3 b j z := ⟨y 0, y 1, y 2, eq_ix3 y⟩
  have ht : t.val < 16 := point_lt t
  have hg : 16 * t.val + j.val < 256 := by have := j.isLt; omega
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 b j z) = resArr m c (((cfg0.win 10).blk t).view.emb (ix3 b j z))
  rw [Point.point_eq m c t b j z hg]
  obtain ⟨e0, e1, e2⟩ := tile_index t
  show resArr m c _ = resArr m c _
  congr 1
  funext a
  apply Fin.ext
  match a with
  | ⟨0, _⟩ => show b.val = win0_10.index t (0 : Fin 3) * 32 + 1 * b.val; rw [e0]; omega
  | ⟨1, _⟩ => show 16 * t.val + j.val = win0_10.index t (1 : Fin 3) * 16 + 1 * j.val; rw [e1]; omega
  | ⟨2, _⟩ => show z.val = win0_10.index t (2 : Fin 3) * 256 + 1 * z.val; rw [e2]; omega

/-- An index of the array is in point `t`'s tile iff each coordinate is in the tile's range on its axis. -/
theorem mem_tile (t : Fin cfg0.N) (i : S32x256x256.Idx) :
    i ∈ ((cfg0.win 10).blk t).view.set ↔ ∀ a : Fin 3, win0_10.index t a * S32x16x256.size a ≤ (i a).val ∧ (i a).val < win0_10.index t a * S32x16x256.size a + S32x16x256.size a := by
  show i ∈ ((View.whole main_v8).slice (win0_10.rect t)).set ↔ _
  rw [View.set_slice_whole, Rect.mem_set_unit]
  exact Iff.rfl

/-- The point whose tile holds middle coordinate `g`: `g / 16`. -/
def tileOf (i : S32x256x256.Idx) : Fin cfg0.N := ⟨(i 1).val / 16, by
  have h1 : (i 1).val < 256 := (i 1).isLt
  show (i 1).val / 16 < grid0.N
  rw [N_0]; omega⟩

/-- The sixteen group tiles fill the array: index `(b, g, z)` is in the tile of point `g / 16`, and every point writes back. -/
theorem cover (i : S32x256x256.Idx) :
    ∃ t : Fin cfg0.N, (cfg0.win 10).flush t = true ∧ i ∈ ((cfg0.win 10).blk t).view.set := by
  have h0 : (i 0).val < 32 := (i 0).isLt
  have h1 : (i 1).val < 256 := (i 1).isLt
  have h2 : (i 2).val < 256 := (i 2).isLt
  refine ⟨tileOf i, flush0_10 _, ?_⟩
  rw [mem_tile]
  obtain ⟨e0, e1, e2⟩ := tile_index (tileOf i)
  have e1' : win0_10.index (tileOf i) (1 : Fin 3) = (i 1).val / 16 := e1
  intro a
  match a with
  | ⟨0, _⟩ => show win0_10.index (tileOf i) (0 : Fin 3) * 32 ≤ (i 0).val ∧ (i 0).val < win0_10.index (tileOf i) (0 : Fin 3) * 32 + 32; rw [e0]; omega
  | ⟨1, _⟩ => show win0_10.index (tileOf i) (1 : Fin 3) * 16 ≤ (i 1).val ∧ (i 1).val < win0_10.index (tileOf i) (1 : Fin 3) * 16 + 16; rw [e1']; omega
  | ⟨2, _⟩ => show win0_10.index (tileOf i) (2 : Fin 3) * 256 ≤ (i 2).val ∧ (i 2).val < win0_10.index (tileOf i) (2 : Fin 3) * 256 + 256; rw [e2]; omega

/-- So after the sixteen write-backs the result array is the whole-array function of the arguments. -/
theorem final (c : Dev nD) : (dats m 0 c).arrAt 10 cfg0.N = resArr m c :=
  (dats m 0 c).arrAt_eq_of_cover 10 (resArr m c) (fun t _ => tile_eq m c t) cover

/-- Every weakly fair execution of the idealized kernel terminates with its result at `outK` of the arguments, the arguments unchanged. -/
theorem run : θ_run defs (onTc (τ := τ) (main (F := Ideal))) ⟨m, fun _ => 0, ρ⟩ fun r => ∀ c : Dev nD,
      r.2.mem ((c.tc : Thread nD τ).loc main_v8) = outK Cert.Lits.s Cert.Lits.eps (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (final m c), (h c).2⟩) (Value.run_blocks m ρ)

end Cert.KernelIdeal.KValue

end
-- ==== Proof.RefTerm.lean ====
/- The reference program's result as ONE pure term of its ten argument arrays, cut into the stages the program's text
   shows: the masked first layer `hostLin1` (the batch and the mask broadcast against each other, multiplied, contracted with
   the weights over the gene axis, the bias added), the statistics of a `[32, 256, 256]` array per middle index
   (`hostMean`: the sum over axes 0 and 2 divided by 8192; `hostVar`: the mean squared deviation, as the variance function
   computes it, selected when its divisor `8192 − ddof` is positive), the normalisation, scale, shift and clip at zero
   (`hostNormRelu`), and the second layer `hostLin2`. `refOut` composes them. -/
import proofs.«164206_j25898652795510_1_alg».proof.ReferenceIdeal
import proofs.«164206_j25898652795510_1_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- The first layer: `(x[b, n] · mask[g, n])` contracted with `w[c, n]` over `n`, plus `bias[c]`. -/
def hostLin1 (x : FVec F S32x10000 .f32) (mask : FVec F S256x10000 .f32) (w : FVec F S256x10000 .f32) (bias : FVec F S256 .f32) :
    FVec F S32x256x256 .f32 :=
  addf
    (Host.dotGeneral dot_S32x256x10000_S256x10000_S32x256x256_2_1_01_0_n_n none
      (mulf
        (broadcastInDim S32x256x10000 ![0, 1, 2] bcast_S32x1x10000_S32x256x10000_0_1_2
          (broadcastInDim S32x1x10000 ![0, 2] bcast_S32x10000_S32x1x10000_0_2 x))
        (broadcastInDim S32x256x10000 ![0, 1, 2] bcast_S1x256x10000_S32x256x10000_0_1_2
          (broadcastInDim S1x256x10000 ![1, 2] bcast_S256x10000_S1x256x10000_1_2 mask)))
      w)
    (broadcastInDim S32x256x256 ![0, 1, 2] bcast_S1x1x256_S32x256x256_0_1_2
      (broadcastInDim S1x1x256 ![2] bcast_S256_S1x1x256_2 bias))

/-- The second layer: `a[b, g, c]` contracted with `w[z, c]` over `c`, plus `bias[z]`. -/
def hostLin2 (a : FVec F S32x256x256 .f32) (w : FVec F S256x256 .f32) (bias : FVec F S256 .f32) : FVec F S32x256x256 .f32 :=
  addf
    (Host.dotGeneral dot_S32x256x256_S256x256_S32x256x256_2_1_01_0_n_n none a w)
    (broadcastInDim S32x256x256 ![0, 1, 2] bcast_S1x1x256_S32x256x256_0_1_2
      (broadcastInDim S1x1x256 ![2] bcast_S256_S1x1x256_2 bias))

/-- The mean per middle index, kept as `[1, 256, 1]`: the sum over axes 0 and 2 from the initial value `0.0`, over `8192.0`. -/
def hostMean (h : FVec F S32x256x256 .f32) : FVec F S1x256x1 .f32 :=
  Host.divf
    (broadcastInDim S1x256x1 ![1] bcast_S256_S1x256x1_1
      (Host.reduceAdd h (constant S_ .f32 0x00000000#32) reducesTo_S32x256x256_S256_d0_2 h_S_))
    (broadcastInDim S1x256x1 ![] bcast_S_S1x256x1 (constant S_ .f32 0x46000000#32))

/-- The divisor of the variance: `8192.0` minus the degrees of freedom, an integer `0` converted. -/
def hostCount : FVec F S_ .f32 :=
  subf (constant S_ .f32 0x46000000#32) (sitofp .f32 (constantI S_ 32 0#32))

/-- The variance per middle index, kept as `[1, 256, 1]`: the squared deviations from the mean summed over axes 0 and 2
    and divided by the count, selected against a not-a-number fill when the count is positive. -/
def hostVar (h : FVec F S32x256x256 .f32) : FVec F S1x256x1 .f32 :=
  select
    (broadcastInDim S1x256x1 ![] bcast_S_S1x256x1 (cmpf .ogt (hostCount (F := F)) (constant S_ .f32 0x00000000#32)))
    (Host.divf
      (broadcastInDim S1x256x1 ![1] bcast_S256_S1x256x1_1
        (Host.reduceAdd
          (mulf
            (subf h (broadcastInDim S32x256x256 ![0, 1, 2] bcast_S1x256x1_S32x256x256_0_1_2 (hostMean h)))
            (subf h (broadcastInDim S32x256x256 ![0, 1, 2] bcast_S1x256x1_S32x256x256_0_1_2 (hostMean h))))
          (constant S_ .f32 0x00000000#32) reducesTo_S32x256x256_S256_d0_2 h_S_))
      (broadcastInDim S1x256x1 ![] bcast_S_S1x256x1 (hostCount (F := F))))
    (broadcastInDim S1x256x1 ![] bcast_S_S1x256x1 (id (constant S_ .f32 0x7FC00000#32)))

/-- Normalise, scale by `γ[g]`, shift by `β[g]`, clip at zero. -/
def hostNormRelu (h : FVec F S32x256x256 .f32) (γ β : FVec F S256 .f32) : FVec F S32x256x256 .f32 :=
  maximumf
    (addf
      (mulf
        (mulf
          (broadcastInDim S32x256x256 ![0, 1, 2] bcast_S1x256x1_S32x256x256_0_1_2
            (broadcastInDim S1x256x1 ![1] bcast_S256_S1x256x1_1 γ))
          (subf h (broadcastInDim S32x256x256 ![0, 1, 2] bcast_S1x256x1_S32x256x256_0_1_2 (hostMean h))))
        (broadcastInDim S32x256x256 ![0, 1, 2] bcast_S1x256x1_S32x256x256_0_1_2
          (Host.rsqrt (addf (hostVar h) (broadcastInDim S1x256x1 ![] bcast_S_S1x256x1 (constant S_ .f32 0x3727C5AC#32))))))
      (broadcastInDim S32x256x256 ![0, 1, 2] bcast_S1x256x1_S32x256x256_0_1_2
        (broadcastInDim S1x256x1 ![1] bcast_S256_S1x256x1_1 β)))
    (broadcastInDim S32x256x256 ![] bcast_S_S32x256x256 (constant S_ .f32 0x00000000#32))

/-- The reference's result of its ten arguments. -/
def refOut (x : FVec F S32x10000 .f32) (mask : FVec F S256x10000 .f32) (w1 : FVec F S256x10000 .f32) (b1 : FVec F S256 .f32)
    (γ1 β1 : FVec F S256 .f32) (w2 : FVec F S256x256 .f32) (b2 : FVec F S256 .f32) (γ2 β2 : FVec F S256 .f32) :
    FVec F S32x256x256 .f32 :=
  hostNormRelu (hostLin2 (hostNormRelu (hostLin1 x mask w1 b1) γ1 β1) w2 b2) γ2 β2

end Cert.ReferenceIdeal.RefTerm

end
-- ==== Proof.RefRun.lean ====
/- The reference program's run, read back: @main is a straight line of host operations once its three outlined functions
   (the variance with its inner select, the clip at zero) are unfolded at their calls, so every weakly fair execution
   terminates with the result buffer at the operations' composed term of the arguments, `RefTerm.refOut`, and the arguments
   unchanged. -/
import proofs.«164206_j25898652795510_1_alg».proof.ReferenceIdeal
import proofs.«164206_j25898652795510_1_alg».proof.Proof.Gen.ReferenceIdeal
import proofs.«164206_j25898652795510_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the variance function's twenty and its inner select's three run
    into the buffers of the records `main_call0` / `main_call0.call0` (first normalisation) and `main_call2` /
    `main_call2.call0` (second), the clip's three into `main_call1` and `main_call3`; around them @main's own fifty-five. -/
abbrev ops : List (HloOp τ sig (Elt F)) :=
  [ unary main_arg0 main_v0 (broadcastInDim S32x1x10000 ![0, 2] bcast_S32x10000_S32x1x10000_0_2 : (⟨S32x10000, .f32⟩ : BufTy).Contents (Elt F) → (⟨S32x1x10000, .f32⟩ : BufTy).Contents (Elt F)),
    unary main_arg1 main_v1 (broadcastInDim S1x256x10000 ![1, 2] bcast_S256x10000_S1x256x10000_1_2 : (⟨S256x10000, .f32⟩ : BufTy).Contents (Elt F) → (⟨S1x256x10000, .f32⟩ : BufTy).Contents (Elt F)),
    unary main_v0 main_v2 (broadcastInDim S32x256x10000 ![0, 1, 2] bcast_S32x1x10000_S32x256x10000_0_1_2 : (⟨S32x1x10000, .f32⟩ : BufTy).Contents (Elt F) → (⟨S32x256x10000, .f32⟩ : BufTy).Contents (Elt F)),
    unary main_v1 main_v3 (broadcastInDim S32x256x10000 ![0, 1, 2] bcast_S1x256x10000_S32x256x10000_0_1_2 : (⟨S1x256x10000, .f32⟩ : BufTy).Contents (Elt F) → (⟨S32x256x10000, .f32⟩ : BufTy).Contents (Elt F)),
    binary main_v2 main_v3 main_v4 (mulf : (⟨S32x256x10000, .f32⟩ : BufTy).Contents (Elt F) → (⟨S32x256x10000, .f32⟩ : BufTy).Contents (Elt F) → (⟨S32x256x10000, .f32⟩ : BufTy).Contents (Elt F)),
    binary main_v4 main_arg2 main_v5 ((fun l r => Host.dotGeneral dot_S32x256x10000_S256x10000_S32x256x256_2_1_01_0_n_n none l r) : (⟨S32x256x10000, .f32⟩ : BufTy).Contents (Elt F) → (⟨S256x10000, .f32⟩ : BufTy).Contents (Elt F) → (⟨S32x256x256, .f32⟩ : BufTy).Contents (Elt F)),
    unary main_arg3 main_v6 (broadcastInDim S1x1x256 ![2] bcast_S256_S1x1x256_2 : (⟨S256, .f32⟩ : BufTy).Contents (Elt F) → (⟨S1x1x256, .f32⟩ : BufTy).Contents (Elt F)),
    unary main_v6 main_v7 (broadcastInDim S32x256x256 ![0, 1, 2] bcast_S1x1x256_S32x256x256_0_1_2 : (⟨S1x1x256, .f32⟩ : BufTy).Contents (Elt F) → (⟨S32x256x256, .f32⟩ : BufTy).Contents (Elt F)),
    binary main_v5 main_v7 main_v8 (addf : (⟨S32x256x256, .f32⟩ : BufTy).Contents (Elt F) → (⟨S32x256x256, .f32⟩ : BufTy).Contents (Elt F) → (⟨S32x256x256, .f32⟩ : BufTy).Contents (Elt F)),
    nullary main_cst (constant S_ .f32 0x00000000#32),
    binary main_v8 main_cst main_v9 ((fun x v => Host.reduceAdd x v reducesTo_S32x256x256_S256_d0_2 h_S_) : (⟨S32x256x256, .f32⟩ : BufTy).Contents (Elt F) → (⟨S_, .f32⟩ : BufTy).Contents (Elt F) → (⟨S256, .f32⟩ : BufTy).Contents (Elt F)),
    unary main_v9 main_v10 (broadcastInDim S1x256x1 ![1] bcast_S256_S1x256x1_1 : (⟨S256, .f32⟩ : BufTy).Contents (Elt F) → (⟨S1x256x1, .f32⟩ : BufTy).Contents (Elt F)),
    nullary main_cst_0 (constant S_ .f32 0x46000000#32),
    unary main_cst_0 main_v11 (broadcastInDim S1x256x1 ![] bcast_S_S1x256x1 : (⟨S_, .f32⟩ : BufTy).Contents (Elt F) → (⟨S1x256x1, .f32⟩ : BufTy).Contents (Elt F)),
    binary main_v10 main_v11 main_v12 (Host.divf : (⟨S1x256x1, .f32⟩ : BufTy).Contents (Elt F) → (⟨S1x256x1, .f32⟩ : BufTy).Contents (Elt F) → (⟨S1x256x1, .f32⟩ : BufTy).Contents (Elt F)),
    nullary main_c (constantI S_ 32 0#32),
    TRef.nullary main_call0.cst (constant S_ .f32 0x00000000#32),
    TRef.binary (.of main_v8) main_call0.cst main_call0.v0 (fun x v => Host.reduceAdd x v reducesTo_S32x256x256_S256_d0_2 h_S_),
    TRef.unary main_call0.v0 main_call0.v1 (broadcastInDim S1x256x1 ![1] bcast_S256_S1x256x1_1),
    TRef.nullary main_call0.cst_0 (constant S_ .f32 0x46000000#32),
    TRef.unary main_call0.cst_0 main_call0.v2 (broadcastInDim S1x256x1 ![] bcast_S_S1x256x1),
    TRef.binary main_call0.v1 main_call0.v2 main_call0.v3 Host.divf,
    TRef.unary main_call0.v3 main_call0.v4 (broadcastInDim S32x256x256 ![0, 1, 2] bcast_S1x256x1_S32x256x256_0_1_2),
    TRef.binary (.of main_v8) main_call0.v4 main_call0.v5 subf,
    TRef.binary main_call0.v5 main_call0.v5 main_call0.v6 mulf,
    TRef.unary (.of main_c) main_call0.v7 (sitofp .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32x256x256_S256_d0_2 h_S_),
    TRef.unary main_call0.v9 main_call0.v10 (broadcastInDim S1x256x1 ![1] bcast_S256_S1x256x1_1),
    TRef.unary main_call0.v8 main_call0.v11 (broadcastInDim S1x256x1 ![] bcast_S_S1x256x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x256x1 ![] bcast_S_S1x256x1),
    TRef.ternary main_call0.v13 main_call0.v12 main_call0.call0.v1 main_call0.call0.v2 (fun p a b => select (broadcastInDim S1x256x1 ![] bcast_S_S1x256x1 p) a b),
    unary main_arg4 main_v14 (broadcastInDim S1x256x1 ![1] bcast_S256_S1x256x1_1 : (⟨S256, .f32⟩ : BufTy).Contents (Elt F) → (⟨S1x256x1, .f32⟩ : BufTy).Contents (Elt F)),
    unary main_v12 main_v15 (broadcastInDim S32x256x256 ![0, 1, 2] bcast_S1x256x1_S32x256x256_0_1_2 : (⟨S1x256x1, .f32⟩ : BufTy).Contents (Elt F) → (⟨S32x256x256, .f32⟩ : BufTy).Contents (Elt F)),
    binary main_v8 main_v15 main_v16 (subf : (⟨S32x256x256, .f32⟩ : BufTy).Contents (Elt F) → (⟨S32x256x256, .f32⟩ : BufTy).Contents (Elt F) → (⟨S32x256x256, .f32⟩ : BufTy).Contents (Elt F)),
    unary main_v14 main_v17 (broadcastInDim S32x256x256 ![0, 1, 2] bcast_S1x256x1_S32x256x256_0_1_2 : (⟨S1x256x1, .f32⟩ : BufTy).Contents (Elt F) → (⟨S32x256x256, .f32⟩ : BufTy).Contents (Elt F)),
    binary main_v17 main_v16 main_v18 (mulf : (⟨S32x256x256, .f32⟩ : BufTy).Contents (Elt F) → (⟨S32x256x256, .f32⟩ : BufTy).Contents (Elt F) → (⟨S32x256x256, .f32⟩ : BufTy).Contents (Elt F)),
    nullary main_cst_1 (constant S_ .f32 0x3727C5AC#32),
    unary main_cst_1 main_v19 (broadcastInDim S1x256x1 ![] bcast_S_S1x256x1 : (⟨S_, .f32⟩ : BufTy).Contents (Elt F) → (⟨S1x256x1, .f32⟩ : BufTy).Contents (Elt F)),
    binary main_v13 main_v19 main_v20 (addf : (⟨S1x256x1, .f32⟩ : BufTy).Contents (Elt F) → (⟨S1x256x1, .f32⟩ : BufTy).Contents (Elt F) → (⟨S1x256x1, .f32⟩ : BufTy).Contents (Elt F)),
    unary main_v20 main_v21 (Host.rsqrt : (⟨S1x256x1, .f32⟩ : BufTy).Contents (Elt F) → (⟨S1x256x1, .f32⟩ : BufTy).Contents (Elt F)),
    unary main_v21 main_v22 (broadcastInDim S32x256x256 ![0, 1, 2] bcast_S1x256x1_S32x256x256_0_1_2 : (⟨S1x256x1, .f32⟩ : BufTy).Contents (Elt F) → (⟨S32x256x256, .f32⟩ : BufTy).Contents (Elt F)),
    binary main_v18 main_v22 main_v23 (mulf : (⟨S32x256x256, .f32⟩ : BufTy).Contents (Elt F) → (⟨S32x256x256, .f32⟩ : BufTy).Contents (Elt F) → (⟨S32x256x256, .f32⟩ : BufTy).Contents (Elt F)),
    unary main_arg5 main_v24 (broadcastInDim S1x256x1 ![1] bcast_S256_S1x256x1_1 : (⟨S256, .f32⟩ : BufTy).Contents (Elt F) → (⟨S1x256x1, .f32⟩ : BufTy).Contents (Elt F)),
    unary main_v24 main_v25 (broadcastInDim S32x256x256 ![0, 1, 2] bcast_S1x256x1_S32x256x256_0_1_2 : (⟨S1x256x1, .f32⟩ : BufTy).Contents (Elt F) → (⟨S32x256x256, .f32⟩ : BufTy).Contents (Elt F)),
    binary main_v23 main_v25 main_v26 (addf : (⟨S32x256x256, .f32⟩ : BufTy).Contents (Elt F) → (⟨S32x256x256, .f32⟩ : BufTy).Contents (Elt F) → (⟨S32x256x256, .f32⟩ : BufTy).Contents (Elt F)),
    TRef.nullary main_call1.cst (constant S_ .f32 0x00000000#32),
    TRef.unary main_call1.cst main_call1.v0 (broadcastInDim S32x256x256 ![] bcast_S_S32x256x256),
    TRef.binary (.of main_v26) main_call1.v0 main_call1.v1 maximumf,
    binary main_v27 main_arg6 main_v28 ((fun l r => Host.dotGeneral dot_S32x256x256_S256x256_S32x256x256_2_1_01_0_n_n none l r) : (⟨S32x256x256, .f32⟩ : BufTy).Contents (Elt F) → (⟨S256x256, .f32⟩ : BufTy).Contents (Elt F) → (⟨S32x256x256, .f32⟩ : BufTy).Contents (Elt F)),
    unary main_arg7 main_v29 (broadcastInDim S1x1x256 ![2] bcast_S256_S1x1x256_2 : (⟨S256, .f32⟩ : BufTy).Contents (Elt F) → (⟨S1x1x256, .f32⟩ : BufTy).Contents (Elt F)),
    unary main_v29 main_v30 (broadcastInDim S32x256x256 ![0, 1, 2] bcast_S1x1x256_S32x256x256_0_1_2 : (⟨S1x1x256, .f32⟩ : BufTy).Contents (Elt F) → (⟨S32x256x256, .f32⟩ : BufTy).Contents (Elt F)),
    binary main_v28 main_v30 main_v31 (addf : (⟨S32x256x256, .f32⟩ : BufTy).Contents (Elt F) → (⟨S32x256x256, .f32⟩ : BufTy).Contents (Elt F) → (⟨S32x256x256, .f32⟩ : BufTy).Contents (Elt F)),
    nullary main_cst_2 (constant S_ .f32 0x00000000#32),
    binary main_v31 main_cst_2 main_v32 ((fun x v => Host.reduceAdd x v reducesTo_S32x256x256_S256_d0_2 h_S_) : (⟨S32x256x256, .f32⟩ : BufTy).Contents (Elt F) → (⟨S_, .f32⟩ : BufTy).Contents (Elt F) → (⟨S256, .f32⟩ : BufTy).Contents (Elt F)),
    unary main_v32 main_v33 (broadcastInDim S1x256x1 ![1] bcast_S256_S1x256x1_1 : (⟨S256, .f32⟩ : BufTy).Contents (Elt F) → (⟨S1x256x1, .f32⟩ : BufTy).Contents (Elt F)),
    nullary main_cst_3 (constant S_ .f32 0x46000000#32),
    unary main_cst_3 main_v34 (broadcastInDim S1x256x1 ![] bcast_S_S1x256x1 : (⟨S_, .f32⟩ : BufTy).Contents (Elt F) → (⟨S1x256x1, .f32⟩ : BufTy).Contents (Elt F)),
    binary main_v33 main_v34 main_v35 (Host.divf : (⟨S1x256x1, .f32⟩ : BufTy).Contents (Elt F) → (⟨S1x256x1, .f32⟩ : BufTy).Contents (Elt F) → (⟨S1x256x1, .f32⟩ : BufTy).Contents (Elt F)),
    nullary main_c_4 (constantI S_ 32 0#32),
    TRef.nullary main_call2.cst (constant S_ .f32 0x00000000#32),
    TRef.binary (.of main_v31) main_call2.cst main_call2.v0 (fun x v => Host.reduceAdd x v reducesTo_S32x256x256_S256_d0_2 h_S_),
    TRef.unary main_call2.v0 main_call2.v1 (broadcastInDim S1x256x1 ![1] bcast_S256_S1x256x1_1),
    TRef.nullary main_call2.cst_0 (constant S_ .f32 0x46000000#32),
    TRef.unary main_call2.cst_0 main_call2.v2 (broadcastInDim S1x256x1 ![] bcast_S_S1x256x1),
    TRef.binary main_call2.v1 main_call2.v2 main_call2.v3 Host.divf,
    TRef.unary main_call2.v3 main_call2.v4 (broadcastInDim S32x256x256 ![0, 1, 2] bcast_S1x256x1_S32x256x256_0_1_2),
    TRef.binary (.of main_v31) main_call2.v4 main_call2.v5 subf,
    TRef.binary main_call2.v5 main_call2.v5 main_call2.v6 mulf,
    TRef.unary (.of main_c_4) main_call2.v7 (sitofp .f32),
    TRef.nullary main_call2.cst_1 (constant S_ .f32 0x46000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S32x256x256_S256_d0_2 h_S_),
    TRef.unary main_call2.v9 main_call2.v10 (broadcastInDim S1x256x1 ![1] bcast_S256_S1x256x1_1),
    TRef.unary main_call2.v8 main_call2.v11 (broadcastInDim S1x256x1 ![] bcast_S_S1x256x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1x256x1 ![] bcast_S_S1x256x1),
    TRef.ternary main_call2.v13 main_call2.v12 main_call2.call0.v1 main_call2.call0.v2 (fun p a b => select (broadcastInDim S1x256x1 ![] bcast_S_S1x256x1 p) a b),
    unary main_arg8 main_v37 (broadcastInDim S1x256x1 ![1] bcast_S256_S1x256x1_1 : (⟨S256, .f32⟩ : BufTy).Contents (Elt F) → (⟨S1x256x1, .f32⟩ : BufTy).Contents (Elt F)),
    unary main_v35 main_v38 (broadcastInDim S32x256x256 ![0, 1, 2] bcast_S1x256x1_S32x256x256_0_1_2 : (⟨S1x256x1, .f32⟩ : BufTy).Contents (Elt F) → (⟨S32x256x256, .f32⟩ : BufTy).Contents (Elt F)),
    binary main_v31 main_v38 main_v39 (subf : (⟨S32x256x256, .f32⟩ : BufTy).Contents (Elt F) → (⟨S32x256x256, .f32⟩ : BufTy).Contents (Elt F) → (⟨S32x256x256, .f32⟩ : BufTy).Contents (Elt F)),
    unary main_v37 main_v40 (broadcastInDim S32x256x256 ![0, 1, 2] bcast_S1x256x1_S32x256x256_0_1_2 : (⟨S1x256x1, .f32⟩ : BufTy).Contents (Elt F) → (⟨S32x256x256, .f32⟩ : BufTy).Contents (Elt F)),
    binary main_v40 main_v39 main_v41 (mulf : (⟨S32x256x256, .f32⟩ : BufTy).Contents (Elt F) → (⟨S32x256x256, .f32⟩ : BufTy).Contents (Elt F) → (⟨S32x256x256, .f32⟩ : BufTy).Contents (Elt F)),
    nullary main_cst_5 (constant S_ .f32 0x3727C5AC#32),
    unary main_cst_5 main_v42 (broadcastInDim S1x256x1 ![] bcast_S_S1x256x1 : (⟨S_, .f32⟩ : BufTy).Contents (Elt F) → (⟨S1x256x1, .f32⟩ : BufTy).Contents (Elt F)),
    binary main_v36 main_v42 main_v43 (addf : (⟨S1x256x1, .f32⟩ : BufTy).Contents (Elt F) → (⟨S1x256x1, .f32⟩ : BufTy).Contents (Elt F) → (⟨S1x256x1, .f32⟩ : BufTy).Contents (Elt F)),
    unary main_v43 main_v44 (Host.rsqrt : (⟨S1x256x1, .f32⟩ : BufTy).Contents (Elt F) → (⟨S1x256x1, .f32⟩ : BufTy).Contents (Elt F)),
    unary main_v44 main_v45 (broadcastInDim S32x256x256 ![0, 1, 2] bcast_S1x256x1_S32x256x256_0_1_2 : (⟨S1x256x1, .f32⟩ : BufTy).Contents (Elt F) → (⟨S32x256x256, .f32⟩ : BufTy).Contents (Elt F)),
    binary main_v41 main_v45 main_v46 (mulf : (⟨S32x256x256, .f32⟩ : BufTy).Contents (Elt F) → (⟨S32x256x256, .f32⟩ : BufTy).Contents (Elt F) → (⟨S32x256x256, .f32⟩ : BufTy).Contents (Elt F)),
    unary main_arg9 main_v47 (broadcastInDim S1x256x1 ![1] bcast_S256_S1x256x1_1 : (⟨S256, .f32⟩ : BufTy).Contents (Elt F) → (⟨S1x256x1, .f32⟩ : BufTy).Contents (Elt F)),
    unary main_v47 main_v48 (broadcastInDim S32x256x256 ![0, 1, 2] bcast_S1x256x1_S32x256x256_0_1_2 : (⟨S1x256x1, .f32⟩ : BufTy).Contents (Elt F) → (⟨S32x256x256, .f32⟩ : BufTy).Contents (Elt F)),
    binary main_v46 main_v48 main_v49 (addf : (⟨S32x256x256, .f32⟩ : BufTy).Contents (Elt F) → (⟨S32x256x256, .f32⟩ : BufTy).Contents (Elt F) → (⟨S32x256x256, .f32⟩ : BufTy).Contents (Elt F)),
    TRef.nullary main_call3.cst (constant S_ .f32 0x00000000#32),
    TRef.unary main_call3.cst main_call3.v0 (broadcastInDim S32x256x256 ![] bcast_S_S32x256x256),
    TRef.binary (.of main_v49) main_call3.v0 main_call3.v1 maximumf ]

set_option maxRecDepth 8192 in
set_option maxHeartbeats 4000000 in
/-- @main is that straight line: the three functions unfolded at their calls and the records at their fields, both sides
    are one chain of host steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub ..,
    unary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

/-! ## The result, stage by stage

The line is cut where the program's text changes subject: the first layer (9 operations), the first normalisation with
its clip (47), the second layer (4), the second normalisation with its clip (47). Each stage is read back over ANY
contents of the buffers before it, so the array a stage normalises stays one variable throughout that stage. -/

/-- Two lines run one after the other: the second folds over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A line folds as its first `k` operations, then the rest. -/
theorem after_split (k : Nat) (l : List (HloOp τ sig (Elt F))) (V : Valuation τ sig (Elt F)) :
    after l V = after (l.drop k) (after (l.take k) V) := by
  rw [← after_append, List.take_append_drop]

/-- The first layer's nine operations leave `hostLin1` of the batch, the mask, the weights and the bias. -/
theorem lin1_eq (W : Valuation τ sig (Elt F)) :
    after (List.take 9 ops) W (main_v8 : DevRef τ sig)
      = RefTerm.hostLin1 (W (main_arg0 : DevRef τ sig)) (W (main_arg1 : DevRef τ sig)) (W (main_arg2 : DevRef τ sig)) (W (main_arg3 : DevRef τ sig)) := by
  simp only [ops, List.take_succ_cons, List.take_zero, List.drop_succ_cons, List.drop_zero]
  after_results_simp <;> rfl

theorem keepA_arg4 (W : Valuation τ sig (Elt F)) :
    after (List.take 9 ops) W (main_arg4 : DevRef τ sig) = W (main_arg4 : DevRef τ sig) := by
  simp only [ops, List.take_succ_cons, List.take_zero, List.drop_succ_cons, List.drop_zero]
  after_results_simp <;> rfl

theorem keepA_arg5 (W : Valuation τ sig (Elt F)) :
    after (List.take 9 ops) W (main_arg5 : DevRef τ sig) = W (main_arg5 : DevRef τ sig) := by
  simp only [ops, List.take_succ_cons, List.take_zero, List.drop_succ_cons, List.drop_zero]
  after_results_simp <;> rfl

theorem keepA_arg6 (W : Valuation τ sig (Elt F)) :
    after (List.take 9 ops) W (main_arg6 : DevRef τ sig) = W (main_arg6 : DevRef τ sig) := by
  simp only [ops, List.take_succ_cons, List.take_zero, List.drop_succ_cons, List.drop_zero]
  after_results_simp <;> rfl

theorem keepA_arg7 (W : Valuation τ sig (Elt F)) :
    after (List.take 9 ops) W (main_arg7 : DevRef τ sig) = W (main_arg7 : DevRef τ sig) := by
  simp only [ops, List.take_succ_cons, List.take_zero, List.drop_succ_cons, List.drop_zero]
  after_results_simp <;> rfl

theorem keepA_arg8 (W : Valuation τ sig (Elt F)) :
    after (List.take 9 ops) W (main_arg8 : DevRef τ sig) = W (main_arg8 : DevRef τ sig) := by
  simp only [ops, List.take_succ_cons, List.take_zero, List.drop_succ_cons, List.drop_zero]
  after_results_simp <;> rfl

theorem keepA_arg9 (W : Valuation τ sig (Elt F)) :
    after (List.take 9 ops) W (main_arg9 : DevRef τ sig) = W (main_arg9 : DevRef τ sig) := by
  simp only [ops, List.take_succ_cons, List.take_zero, List.drop_succ_cons, List.drop_zero]
  after_results_simp <;> rfl

set_option maxRecDepth 8192 in
set_option maxHeartbeats 4000000 in
/-- The first normalisation: mean, variance through the outlined function and its select, scale, shift, clip. -/
theorem norm1_eq (W : Valuation τ sig (Elt F)) :
    after (List.take 47 (List.drop 9 ops)) W (main_v27 : DevRef τ sig)
      = RefTerm.hostNormRelu (W (main_v8 : DevRef τ sig)) (W (main_arg4 : DevRef τ sig)) (W (main_arg5 : DevRef τ sig)) := by
  simp only [ops, List.take_succ_cons, List.take_zero, List.drop_succ_cons, List.drop_zero]
  after_results_simp <;> rfl

set_option maxRecDepth 8192 in
set_option maxHeartbeats 4000000 in
theorem keepB_arg6 (W : Valuation τ sig (Elt F)) :
    after (List.take 47 (List.drop 9 ops)) W (main_arg6 : DevRef τ sig) = W (main_arg6 : DevRef τ sig) := by
  simp only [ops, List.take_succ_cons, List.take_zero, List.drop_succ_cons, List.drop_zero]
  after_results_simp <;> rfl

set_option maxRecDepth 8192 in
set_option maxHeartbeats 4000000 in
theorem keepB_arg7 (W : Valuation τ sig (Elt F)) :
    after (List.take 47 (List.drop 9 ops)) W (main_arg7 : DevRef τ sig) = W (main_arg7 : DevRef τ sig) := by
  simp only [ops, List.take_succ_cons, List.take_zero, List.drop_succ_cons, List.drop_zero]
  after_results_simp <;> rfl

set_option maxRecDepth 8192 in
set_option maxHeartbeats 4000000 in
theorem keepB_arg8 (W : Valuation τ sig (Elt F)) :
    after (List.take 47 (List.drop 9 ops)) W (main_arg8 : DevRef τ sig) = W (main_arg8 : DevRef τ sig) := by
  simp only [ops, List.take_succ_cons, List.take_zero, List.drop_succ_cons, List.drop_zero]
  after_results_simp <;> rfl

set_option maxRecDepth 8192 in
set_option maxHeartbeats 4000000 in
theorem keepB_arg9 (W : Valuation τ sig (Elt F)) :
    after (List.take 47 (List.drop 9 ops)) W (main_arg9 : DevRef τ sig) = W (main_arg9 : DevRef τ sig) := by
  simp only [ops, List.take_succ_cons, List.take_zero, List.drop_succ_cons, List.drop_zero]
  after_results_simp <;> rfl

/-- The second layer's four operations. -/
theorem lin2_eq (W : Valuation τ sig (Elt F)) :
    after (List.take 4 (List.drop 47 (List.drop 9 ops))) W (main_v31 : DevRef τ sig)
      = RefTerm.hostLin2 (W (main_v27 : DevRef τ sig)) (W (main_arg6 : DevRef τ sig)) (W (main_arg7 : DevRef τ sig)) := by
  simp only [ops, List.take_succ_cons, List.take_zero, List.drop_succ_cons, List.drop_zero]
  after_results_simp <;> rfl

theorem keepC_arg8 (W : Valuation τ sig (Elt F)) :
    after (List.take 4 (List.drop 47 (List.drop 9 ops))) W (main_arg8 : DevRef τ sig) = W (main_arg8 : DevRef τ sig) := by
  simp only [ops, List.take_succ_cons, List.take_zero, List.drop_succ_cons, List.drop_zero]
  after_results_simp <;> rfl

theorem keepC_arg9 (W : Valuation τ sig (Elt F)) :
    after (List.take 4 (List.drop 47 (List.drop 9 ops))) W (main_arg9 : DevRef τ sig) = W (main_arg9 : DevRef τ sig) := by
  simp only [ops, List.take_succ_cons, List.take_zero, List.drop_succ_cons, List.drop_zero]
  after_results_simp <;> rfl

set_option maxRecDepth 8192 in
set_option maxHeartbeats 4000000 in
/-- The second normalisation, the same text over the second layer's array. -/
theorem norm2_eq (W : Valuation τ sig (Elt F)) :
    after (List.drop 4 (List.drop 47 (List.drop 9 ops))) W (main_v50 : DevRef τ sig)
      = RefTerm.hostNormRelu (W (main_v31 : DevRef τ sig)) (W (main_arg8 : DevRef τ sig)) (W (main_arg9 : DevRef τ sig)) := by
  simp only [ops, List.take_succ_cons, List.take_zero, List.drop_succ_cons, List.drop_zero]
  after_results_simp <;> rfl

/-- The whole line at the result buffer: the four stages composed. -/
theorem out_eq (V : Valuation τ sig (Elt F)) :
    after ops V (main_v50 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [after_split 9 ops V, after_split 47 (List.drop 9 ops), after_split 4 (List.drop 47 (List.drop 9 ops))]
  rw [norm2_eq, lin2_eq, keepC_arg8, keepC_arg9, norm1_eq, keepB_arg6, keepB_arg7, keepB_arg8, keepB_arg9,
    lin1_eq, keepA_arg4, keepA_arg5, keepA_arg6, keepA_arg7, keepA_arg8, keepA_arg9]
  rfl

set_option maxRecDepth 8192 in
set_option maxHeartbeats 4000000 in
/-- Every weakly fair execution of the reference terminates with its result at `refOut` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v50).trans (out_eq (launchContents m c)),
      (h c main_arg0).trans (by after_results_simp <;> rfl), (h c main_arg1).trans (by after_results_simp <;> rfl),
      (h c main_arg2).trans (by after_results_simp <;> rfl), (h c main_arg3).trans (by after_results_simp <;> rfl),
      (h c main_arg4).trans (by after_results_simp <;> rfl), (h c main_arg5).trans (by after_results_simp <;> rfl),
      (h c main_arg6).trans (by after_results_simp <;> rfl), (h c main_arg7).trans (by after_results_simp <;> rfl),
      (h c main_arg8).trans (by after_results_simp <;> rfl), (h c main_arg9).trans (by after_results_simp <;> rfl)⟩)
    (run_seq scopedRefs_eq scopedSems_eq defs main (fun _ => ops) main_eq (fun _ => ops_sub) m ρ)

end Cert.ReferenceIdeal.RefRun

end
-- ==== Proof.LibOuterSums.lean ====
/- A host sum over the two OUTER axes of a rank-3 array, read at an index, for any extents. The host's `reduce … add` of an
   `[a, b, c]` array across dimensions 0 and 2 into `[b]` is, at the extended reals, the initial value plus the sum of the
   entries whose middle coordinate is the result's index; over the coordinates that is a double sum.

   An index (p, q, r) of the array is the triple of its coordinates, listed middle one first (`midEquiv`), so a sum over
   every index is the sum over q of the double sums over (p, r) (`sum_mid_first`), and the indices whose middle
   coordinate is a given q contribute exactly the q-th of these double sums (`sum_on_mid`). Removing the coordinates on
   axes 0 and 2 from an index leaves its middle coordinate (`drop_outer`), which gives the reading of the host's sum.
   The values need only be a commutative monoid under addition, so nothing here asks for finiteness. -/
import Idealize.ShloMosaic.PureOps.Ideal
import Idealize.ShloMosaic.PureOps.Ideal.Laws
import Idealize.ShloMosaic.Lib.ValueIdx

namespace Cert.LibOuterSums

open Idealize.ShloMosaic Idealize.ShloMosaic.ValueIdx
open scoped BigOperators

/-- An index of an `[a, b, c]` array is its three coordinates, the middle one listed first. -/
def midEquiv {a b c : Nat} : (⟨3, ![a, b, c]⟩ : Shape).Idx ≃ Fin b × Fin a × Fin c where
  toFun i := (i 1, i 0, i 2)
  invFun t := ix3 t.2.1 t.1 t.2.2
  left_inv i := (eq_ix3 i).symm
  right_inv _ := rfl

/-- The middle coordinate of an index of the array. -/
def midOf {a b c : Nat} (i : (⟨3, ![a, b, c]⟩ : Shape).Idx) : Fin b := i 1

/-- A sum over every index of the array is the sum over the middle coordinate of the double sums over the outer two. -/
theorem sum_mid_first {M : Type*} [AddCommMonoid M] {a b c : Nat} (f : (⟨3, ![a, b, c]⟩ : Shape).Idx → M) :
    ∑ i, f i = ∑ q : Fin b, ∑ p : Fin a, ∑ r : Fin c, f (ix3 p q r) := by
  rw [← Equiv.sum_comp (midEquiv (a := a) (b := b) (c := c)).symm f, Fintype.sum_prod_type]
  refine Finset.sum_congr rfl fun q _ => ?_
  rw [Fintype.sum_prod_type]
  rfl

/-- The indices whose middle coordinate is `q`, summed, are the outer two coordinates, summed, at middle coordinate `q`. -/
theorem sum_on_mid {M : Type*} [AddCommMonoid M] {a b c : Nat} (f : (⟨3, ![a, b, c]⟩ : Shape).Idx → M) (q : Fin b) :
    ∑ i ∈ Finset.univ.filter (fun i : (⟨3, ![a, b, c]⟩ : Shape).Idx => midOf i = q), f i
      = ∑ p : Fin a, ∑ r : Fin c, f (ix3 p q r) := by
  rw [Finset.sum_filter, sum_mid_first, Finset.sum_eq_single q]
  · exact Finset.sum_congr rfl fun p _ => Finset.sum_congr rfl fun r _ => if_pos rfl
  · intro q' _ hq'
    exact Finset.sum_eq_zero fun p _ => Finset.sum_eq_zero fun r _ => if_neg hq'
  · intro hq
    exact absurd (Finset.mem_univ q) hq

/-- Removing the coordinates on axes 0 and 2 from an index of the array leaves its middle coordinate. -/
theorem drop_outer {a b c : Nat} (h : (⟨3, ![a, b, c]⟩ : Shape).ReducesTo [0, 2] (⟨1, ![b]⟩ : Shape))
    (i : (⟨3, ![a, b, c]⟩ : Shape).Idx) : h.drop i = ix1 (midOf i) := by
  funext d
  match d with
  | ⟨0, _⟩ => rfl

/-- The host's sum over axes 0 and 2 at middle index `q`: the initial value plus `∑ p, ∑ r, x (p, q, r)`. -/
theorem hostReduceAdd_outer {a b c : Nat} (h : (⟨3, ![a, b, c]⟩ : Shape).ReducesTo [0, 2] (⟨1, ![b]⟩ : Shape))
    (x : (⟨3, ![a, b, c]⟩ : Shape).Idx → EReal) (init : EReal) (q : Fin b) :
    Ideal.hostReduceAdd h x init (ix1 q) = init + ∑ p : Fin a, ∑ r : Fin c, x (ix3 p q r) := by
  unfold Ideal.hostReduceAdd
  rw [← sum_on_mid x q]
  congr 1
  refine Finset.sum_congr (Finset.filter_congr fun i _ => ?_) fun _ _ => rfl
  rw [drop_outer]
  constructor
  · intro e
    exact congrFun e 0
  · intro e
    rw [e]

end Cert.LibOuterSums
-- ==== Proof.RefRead.lean ====
/- The reference's term read at an index: at the extended reals `RefTerm.refOut` is, index by index, the masked two-layer
   group network in its first spelling (`LibMaskedGroupNet.outR`) with the count `8192.0` and the epsilon word. -/
import proofs.«164206_j25898652795510_1_alg».proof.Proof.RefTerm
import proofs.«164206_j25898652795510_1_alg».proof.Proof.LibMaskedGroupNet
import proofs.«164206_j25898652795510_1_alg».proof.Proof.LibOuterSums
import proofs.«164206_j25898652795510_1_alg».proof.Proof.Lits
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefRead

open Cert.ReferenceIdeal Cert.ReferenceIdeal.Gen Idealize.ShloMosaic Idealize.ShloMosaic.TcCoe Idealize.ShloMosaic.ValueIdx
open Cert.LibMaskedGroupNet
open scoped BigOperators

/-! ### A contraction of a rank-3 array with a matrix over their last axes, read at an index -/

section Dot
variable {a b c k : Nat} {φ₁ φ₂ : FTy}

/-- `[a, b, k]` against `[c, k]`, contracted over the last axis of each, no batch axis: the entry at `(p, q, r)` is
    `∑ n, A (p, q, n) · B (r, n)`. -/
theorem dot_abk_ck_apply
    (w : DotDims.WF ⟨3, ![a, b, k]⟩ ⟨2, ![c, k]⟩ ⟨3, ![a, b, c]⟩ [2] [1] [0, 1] [0] [] [])
    (prec : Option ContractPrecision) (A : FVec Ideal ⟨3, ![a, b, k]⟩ φ₁) (B : FVec Ideal ⟨2, ![c, k]⟩ φ₂)
    (p : Fin a) (q : Fin b) (r : Fin c) :
    Host.dotGeneral (⟨[2], [1], [0, 1], [0], [], [], w⟩ : DotDims _ _ _) prec A B (ix3 p q r)
      = ∑ n : Fin k, A (ix3 p q n) * B (ix2 r n) := by
  show FloatOps.dotGeneral _ prec _ A B (ix3 p q r) = _
  rw [Ideal.dotGeneral_apply,
    ← Equiv.sum_comp (contrEquiv1 (⟨[2], [1], [0, 1], [0], [], [], w⟩ : DotDims _ _ _) k rfl rfl).symm]
  refine Finset.sum_congr rfl fun n _ => ?_
  have cn := contrEquiv1_symm_val
    (⟨[2], [1], [0, 1], [0], [], [], w⟩ : DotDims ⟨3, ![a, b, k]⟩ ⟨2, ![c, k]⟩ ⟨3, ![a, b, c]⟩) k rfl rfl n
  have hl : (⟨[2], [1], [0, 1], [0], [], [], w⟩ : DotDims ⟨3, ![a, b, k]⟩ ⟨2, ![c, k]⟩ ⟨3, ![a, b, c]⟩).lhsIdx (ix3 p q r)
      ((contrEquiv1 _ k rfl rfl).symm n) = ix3 p q n := by
    funext ax; apply Fin.ext
    match ax with
    | ⟨0, _⟩ => simp [DotDims.lhsIdx]; rfl
    | ⟨1, _⟩ => simp [DotDims.lhsIdx]; rfl
    | ⟨2, _⟩ => simp [DotDims.lhsIdx]; exact cn
  have hr : (⟨[2], [1], [0, 1], [0], [], [], w⟩ : DotDims ⟨3, ![a, b, k]⟩ ⟨2, ![c, k]⟩ ⟨3, ![a, b, c]⟩).rhsIdx (ix3 p q r)
      ((contrEquiv1 _ k rfl rfl).symm n) = ix2 r n := by
    funext ax; apply Fin.ext
    match ax with
    | ⟨0, _⟩ => simp [DotDims.rhsIdx]; rfl
    | ⟨1, _⟩ => simp [DotDims.rhsIdx]; exact cn
  rw [hl, hr]

end Dot

/-! ### The reference's broadcasts, read at an index -/

section Bcast
variable {α : Type}

/-- The batch `[32, 10000]` placed on axes 0 and 2 and copied along axis 1. -/
theorem bcast_x_apply (x : S32x10000.Idx → α) (b : Fin 32) (g : Fin 256) (n : Fin 10000) :
    broadcastInDim S32x256x10000 ![0, 1, 2] bcast_S32x1x10000_S32x256x10000_0_1_2
      (broadcastInDim S32x1x10000 ![0, 2] bcast_S32x10000_S32x1x10000_0_2 x) (ix3 b g n) = x (ix2 b n) := by
  refine (broadcastInDim_apply _ _ _ (ix3 b g n) (ix3 b (0 : Fin 1) n)
    (fun a => match a with | ⟨0, _⟩ => rfl | ⟨1, _⟩ => rfl | ⟨2, _⟩ => rfl)).trans ?_
  exact broadcastInDim_apply _ _ _ (ix3 b (0 : Fin 1) n) (ix2 b n) (fun a => match a with | ⟨0, _⟩ => rfl | ⟨1, _⟩ => rfl)

/-- The mask `[256, 10000]` placed on axes 1 and 2 and copied along axis 0. -/
theorem bcast_mask_apply (m : S256x10000.Idx → α) (b : Fin 32) (g : Fin 256) (n : Fin 10000) :
    broadcastInDim S32x256x10000 ![0, 1, 2] bcast_S1x256x10000_S32x256x10000_0_1_2
      (broadcastInDim S1x256x10000 ![1, 2] bcast_S256x10000_S1x256x10000_1_2 m) (ix3 b g n) = m (ix2 g n) := by
  refine (broadcastInDim_apply _ _ _ (ix3 b g n) (ix3 (0 : Fin 1) g n)
    (fun a => match a with | ⟨0, _⟩ => rfl | ⟨1, _⟩ => rfl | ⟨2, _⟩ => rfl)).trans ?_
  exact broadcastInDim_apply _ _ _ (ix3 (0 : Fin 1) g n) (ix2 g n) (fun a => match a with | ⟨0, _⟩ => rfl | ⟨1, _⟩ => rfl)

/-- A bias `[256]` placed on the last axis and copied along the first two. -/
theorem bcast_bias_apply (v : S256.Idx → α) (b : Fin 32) (g : Fin 256) (c : Fin 256) :
    broadcastInDim S32x256x256 ![0, 1, 2] bcast_S1x1x256_S32x256x256_0_1_2
      (broadcastInDim S1x1x256 ![2] bcast_S256_S1x1x256_2 v) (ix3 b g c) = v (ix1 c) := by
  refine (broadcastInDim_apply _ _ _ (ix3 b g c) (ix3 (0 : Fin 1) (0 : Fin 1) c)
    (fun a => match a with | ⟨0, _⟩ => rfl | ⟨1, _⟩ => rfl | ⟨2, _⟩ => rfl)).trans ?_
  exact broadcastInDim_apply _ _ _ (ix3 (0 : Fin 1) (0 : Fin 1) c) (ix1 c) (fun a => match a with | ⟨0, _⟩ => rfl)

/-- A per-group array `[256]` kept as `[1, 256, 1]`. -/
theorem bcast_keep_apply (v : S256.Idx → α) (i : Fin 1) (g : Fin 256) (j : Fin 1) :
    broadcastInDim S1x256x1 ![1] bcast_S256_S1x256x1_1 v (ix3 i g j) = v (ix1 g) :=
  broadcastInDim_apply _ _ _ (ix3 i g j) (ix1 g) (fun a => match a with | ⟨0, _⟩ => rfl)

/-- A kept per-group array `[1, 256, 1]` copied along the outer axes. -/
theorem bcast_group_apply (t : S1x256x1.Idx → α) (b : Fin 32) (g : Fin 256) (c : Fin 256) :
    broadcastInDim S32x256x256 ![0, 1, 2] bcast_S1x256x1_S32x256x256_0_1_2 t (ix3 b g c)
      = t (ix3 (0 : Fin 1) g (0 : Fin 1)) :=
  broadcastInDim_apply _ _ _ (ix3 b g c) (ix3 (0 : Fin 1) g (0 : Fin 1))
    (fun a => match a with | ⟨0, _⟩ => rfl | ⟨1, _⟩ => rfl | ⟨2, _⟩ => rfl)

end Bcast

/-! ### The two layers at an index -/

/-- The first layer at `(b, g, c)`: the batch row times mask row `g`, against weight row `c`, plus the bias. -/
theorem hostLin1_apply (x : FVec Ideal S32x10000 .f32) (mask : FVec Ideal S256x10000 .f32) (w : FVec Ideal S256x10000 .f32)
    (bias : FVec Ideal S256 .f32) (b : Fin 32) (g : Fin 256) (c : Fin 256) :
    RefTerm.hostLin1 (F := Ideal) x mask w bias (ix3 b g c) = lin1 (at2 x) (at2 mask g) (at2 w) (at1 bias) b c := by
  unfold RefTerm.hostLin1 lin1
  rw [addf_apply, bcast_bias_apply]
  refine congrArg (· + bias (ix1 c)) ?_
  refine (dot_abk_ck_apply dot_S32x256x10000_S256x10000_S32x256x256_2_1_01_0_n_n_wf none _ w b g c).trans ?_
  refine Finset.sum_congr rfl fun n _ => ?_
  rw [mulf_apply, bcast_x_apply, bcast_mask_apply]

/-- The second layer at `(b, g, z)`: slab `g` of the operand against weight row `z`, plus the bias. -/
theorem hostLin2_apply (a : FVec Ideal S32x256x256 .f32) (w : FVec Ideal S256x256 .f32) (bias : FVec Ideal S256 .f32)
    (b : Fin 32) (g : Fin 256) (z : Fin 256) :
    RefTerm.hostLin2 (F := Ideal) a w bias (ix3 b g z) = lin2 (fun b c => a (ix3 b g c)) (at2 w) (at1 bias) b z := by
  unfold RefTerm.hostLin2 lin2
  rw [addf_apply, bcast_bias_apply]
  refine congrArg (· + bias (ix1 z)) ?_
  exact dot_abk_ck_apply dot_S32x256x256_S256x256_S32x256x256_2_1_01_0_n_n_wf none a w b g z

/-! ### The statistics of a `[32, 256, 256]` array per middle index -/

/-- The count `8192` is positive. -/
theorem D_pos : (0 : EReal) < Cert.Lits.D := by
  rw [Cert.Lits.D_eq]; exact EReal.coe_pos.mpr (by norm_num)

/-- The host's reciprocal square root at an index is the extended reals'. -/
theorem hostRsqrt_apply {s : Shape} {φ : FTy} (v : FVec Ideal s φ) (i : s.Idx) : Host.rsqrt v i = Ideal.rsqrt (v i) := rfl

/-- The sum over axes 0 and 2 from the zero word, at middle index `g`: the total of slab `g`. -/
theorem hostSum_apply (h : FVec Ideal S32x256x256 .f32) (g : Fin 256) :
    Host.reduceAdd h (constant (F := Ideal) S_ .f32 0x00000000#32) reducesTo_S32x256x256_S256_d0_2 h_S_ (ix1 g)
      = tot (fun b c => h (ix3 b g c)) := by
  rw [hostReduceAdd_apply, constant_apply, Ideal.ofBits_zero_f32]
  exact (Cert.LibOuterSums.hostReduceAdd_outer reducesTo_S32x256x256_S256_d0_2 h 0 g).trans (zero_add _)

/-- The mean of slab `g`. -/
theorem hostMean_apply (h : FVec Ideal S32x256x256 .f32) (i : Fin 1) (g : Fin 256) (j : Fin 1) :
    RefTerm.hostMean (F := Ideal) h (ix3 i g j) = meanR Cert.Lits.D (fun b c => h (ix3 b g c)) := by
  unfold RefTerm.hostMean meanR
  rw [hostDivf_apply, bcast_keep_apply, hostSum_apply, broadcastInDim_scalar_apply, constant_apply]

/-- The variance's divisor: `8192` minus the integer `0` converted. -/
theorem hostCount_apply (i : S_.Idx) : RefTerm.hostCount (F := Ideal) i = Cert.Lits.D := by
  unfold RefTerm.hostCount
  rw [subf_apply, constant_apply, sitofp_apply]
  show Cert.Lits.D - (((0#32 : BitVec 32).toInt : ℝ) : EReal) = Cert.Lits.D
  simp

/-- The variance of slab `g`: the divisor is positive, so the select reads the quotient. -/
theorem hostVar_apply (h : FVec Ideal S32x256x256 .f32) (i : Fin 1) (g : Fin 256) (j : Fin 1) :
    RefTerm.hostVar (F := Ideal) h (ix3 i g j) = varR Cert.Lits.D (fun b c => h (ix3 b g c)) := by
  unfold RefTerm.hostVar varR
  have hc : broadcastInDim S1x256x1 ![] bcast_S_S1x256x1
      (cmpf .ogt (RefTerm.hostCount (F := Ideal)) (constant S_ .f32 0x00000000#32)) (ix3 i g j) = 1#1 := by
    rw [broadcastInDim_scalar_apply, cmpf_apply, hostCount_apply, constant_apply, Ideal.ofBits_zero_f32, Ideal.cmpf_def]
    show BitVec.ofBool (decide ((0 : EReal) < Cert.Lits.D)) = 1#1
    rw [decide_eq_true D_pos]; rfl
  rw [select_apply, hc, select_one, hostDivf_apply, bcast_keep_apply, hostSum_apply, broadcastInDim_scalar_apply,
    hostCount_apply]
  refine congrArg (Ideal.div · Cert.Lits.D) ?_
  unfold tot
  refine Finset.sum_congr rfl fun p _ => Finset.sum_congr rfl fun r _ => ?_
  beta_reduce
  rw [mulf_apply, subf_apply, bcast_group_apply, hostMean_apply]

/-- Normalise, scale, shift and clip at `(b, g, c)`: the normalised slab `g` with the group's scale and shift. -/
theorem hostNormRelu_apply (h : FVec Ideal S32x256x256 .f32) (γ β : FVec Ideal S256 .f32) (b : Fin 32) (g : Fin 256) (c : Fin 256) :
    RefTerm.hostNormRelu (F := Ideal) h γ β (ix3 b g c)
      = actR Cert.Lits.D Cert.Lits.eps (γ (ix1 g)) (β (ix1 g)) (fun b c => h (ix3 b g c)) b c := by
  unfold RefTerm.hostNormRelu actR normRelu
  rw [maximumf_apply, addf_apply, mulf_apply, mulf_apply, subf_apply, broadcastInDim_scalar_apply, constant_apply,
    Ideal.ofBits_zero_f32]
  rw [bcast_group_apply (broadcastInDim S1x256x1 ![1] bcast_S256_S1x256x1_1 γ), bcast_keep_apply,
    bcast_group_apply (broadcastInDim S1x256x1 ![1] bcast_S256_S1x256x1_1 β), bcast_keep_apply,
    bcast_group_apply (RefTerm.hostMean h), hostMean_apply,
    bcast_group_apply (Host.rsqrt _), hostRsqrt_apply, addf_apply, hostVar_apply, broadcastInDim_scalar_apply, constant_apply]

/-- The reference's result is the network's first spelling, as arrays. -/
theorem refOut_eq (x : FVec Ideal S32x10000 .f32) (mask : FVec Ideal S256x10000 .f32) (w1 : FVec Ideal S256x10000 .f32)
    (b1 : FVec Ideal S256 .f32) (γ1 β1 : FVec Ideal S256 .f32) (w2 : FVec Ideal S256x256 .f32) (b2 : FVec Ideal S256 .f32)
    (γ2 β2 : FVec Ideal S256 .f32) :
    RefTerm.refOut (F := Ideal) x mask w1 b1 γ1 β1 w2 b2 γ2 β2
      = outR Cert.Lits.D Cert.Lits.eps x mask w1 b1 γ1 β1 w2 b2 γ2 β2 := by
  funext i
  obtain ⟨b, g, z, rfl⟩ : ∃ (b : Fin 32) (g : Fin 256) (z : Fin 256), i = ix3 b g z := ⟨i 0, i 1, i 2, eq_ix3 i⟩
  unfold RefTerm.refOut
  have h0 : (fun b c => RefTerm.hostLin1 (F := Ideal) x mask w1 b1 (ix3 b g c))
      = lin1 (at2 x) (at2 mask g) (at2 w1) (at1 b1) := by
    funext b c; exact hostLin1_apply x mask w1 b1 b g c
  have h1 : (fun b c => RefTerm.hostNormRelu (F := Ideal) (RefTerm.hostLin1 x mask w1 b1) γ1 β1 (ix3 b g c))
      = actR Cert.Lits.D Cert.Lits.eps (γ1 (ix1 g)) (β1 (ix1 g)) (lin1 (at2 x) (at2 mask g) (at2 w1) (at1 b1)) := by
    funext b c; rw [hostNormRelu_apply, h0]
  have h2 : (fun b c => RefTerm.hostLin2 (F := Ideal) (RefTerm.hostNormRelu (RefTerm.hostLin1 x mask w1 b1) γ1 β1) w2 b2 (ix3 b g c))
      = lin2 (actR Cert.Lits.D Cert.Lits.eps (γ1 (ix1 g)) (β1 (ix1 g)) (lin1 (at2 x) (at2 mask g) (at2 w1) (at1 b1)))
          (at2 w2) (at1 b2) := by
    funext b c; rw [hostLin2_apply, h1]
  rw [hostNormRelu_apply, h2]
  rfl

end Cert.ReferenceIdeal.RefRead

end
-- ==== Proof.lean ====
/- The certificate of the masked two-layer group network kernel against its jnp reference, over the extended reals.
   Both programs compute, for each of the 256 groups `g`, the same function of the batch `x`, mask row `g`, the two weight
   matrices and biases and the group's two scale / shift pairs: `h = (x · mask_g) W1ᵀ + b1`, normalised over the group's
   `32 · 256` entries, scaled, shifted and clipped at zero, then `z = a W2ᵀ + b2` treated the same way. The kernel works on
   sixteen groups per grid point (sixteen points tile the 256 groups) and takes its statistics as `total · 2⁻¹³` and
   `E[h²] − E[h]²`; the reference divides by `8192` and takes the mean squared deviation. `2⁻¹³` is exactly `1/8192`, and
   the two variances are one real number when the slab is finite, which the precondition (finite inputs) gives: the
   first slab is a finite sum of products of finite inputs, its normalised form is finite because the variance plus a
   positive epsilon has a real reciprocal square root, and so the second slab is finite too.
   The frames of the two kernel programs are the generated ones; the reference's frame is its run read back with the
   result dropped; the ideal pass rewrote nothing, so the preservation claim is trivial. -/
import proofs.«164206_j25898652795510_1_alg».proof.Defs
import proofs.«164206_j25898652795510_1_alg».proof.Proof.Gen.Kernel
import proofs.«164206_j25898652795510_1_alg».proof.Proof.Gen.Kernel.Frame
import proofs.«164206_j25898652795510_1_alg».proof.Proof.Gen.KernelIdeal
import proofs.«164206_j25898652795510_1_alg».proof.Proof.Gen.KernelIdeal.Frame
import proofs.«164206_j25898652795510_1_alg».proof.Proof.Gen.KernelIdeal.Value
import proofs.«164206_j25898652795510_1_alg».proof.Proof.Gen.ReferenceIdeal
import proofs.«164206_j25898652795510_1_alg».proof.Proof.Gen.Pre_finite_inputs
import proofs.«164206_j25898652795510_1_alg».proof.Proof.Lits
import proofs.«164206_j25898652795510_1_alg».proof.Proof.LibMaskedGroupNet
import proofs.«164206_j25898652795510_1_alg».proof.Proof.LibMaskedGroupNetLaw
import proofs.«164206_j25898652795510_1_alg».proof.Proof.FinitePre
import proofs.«164206_j25898652795510_1_alg».proof.Proof.KernelValue
import proofs.«164206_j25898652795510_1_alg».proof.Proof.RefRun
import proofs.«164206_j25898652795510_1_alg».proof.Proof.RefRead
import Idealize.ShloMosaic.Adequacy
import Idealize.ShloMosaic.Init

noncomputable section

namespace Cert.Proof

open Idealize.ShloMosaic Idealize.ShloMosaic.TcCoe Idealize.SL.Sem
open Cert.LibMaskedGroupNet

/-- The word-level kernel terminates without a fault and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both idealized programs end with the group network's result array in its division / squared-deviation spelling: the
    reference computes that spelling, the kernel the reciprocal / mean-of-squares one, and the two agree at finite inputs. -/
theorem algebraic : Cert.algebraic_KernelIdeal_ReferenceIdeal := by
  intro m ρ m' ρ' hpre hagree
  refine ⟨fun c => outR Cert.Lits.D Cert.Lits.eps
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.KValue.run m ρ)
    obtain ⟨h0, h1, h2, h3, h4, h5, h6, h7, _, _⟩ := Cert.FinitePre.of_pre m hpre c
    exact outK_eq_outR (B := 32) (N := 10000) (H := 256) (Z := 256) (G := 256) Cert.Lits.D_eq_card Cert.Lits.D_eq_card
      Cert.Lits.card_ne Cert.Lits.card_ne Cert.Lits.mul_s Cert.Lits.eps_fin Cert.Lits.eps_pos h0 h1 h2 h3 h4 h5 h6 h7
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9⟩ := hagree c
    rw [e0, e1, e2, e3, e4, e5, e6, e7, e8, e9]
    exact Cert.ReferenceIdeal.RefRead.refOut_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
